-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2097152 : Shape := ⟨1, ![2097152]⟩
abbrev S512x32 : Shape := ⟨2, ![512, 32]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2097152 : S_.BroadcastsInDim S2097152 (![] : Fin 0 → Fin S2097152.rank)
  reducesTo_S2097152_S_d0 : S2097152.ReducesTo [0] S_
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S2048x1024 .f32) (main_arg1 : FVec F S2097152 .f32) (main_arg2 : FVec F S512x32 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2097152 .f32 := Host.absf main_arg1
  let main_cst_0 : FVec F S_ .f32 := constant S_ .f32 0x7F800000#32
  let main_v5 : FVec F S2097152 .f32 := broadcastInDim S2097152 ![] bcast_S_S2097152 main_cst_0
  let main_v6 : IVec S2097152 1 := cmpf .olt main_v4 main_v5
  let main_c_1 : IVec S_ 1 := constantI S_ 1 1#1
  let main_v7 : IVec S_ 1 := (fun x v => Host.reduce IntOp.andi x v reducesTo_S2097152_S_d0 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  main_v13
-- ==== Kernel.lean ====
abbrev S2048x1024 : Shape := ⟨2, ![2048, 1024]⟩
abbrev S2097152 : Shape := ⟨1, ![2097152]⟩
abbrev S512x32 : Shape := ⟨2, ![512, 32]⟩
abbrev S2048x32x32 : Shape := ⟨3, ![2048, 32, 32]⟩
abbrev S32x2048x32 : Shape := ⟨3, ![32, 2048, 32]⟩
abbrev S32x512 : Shape := ⟨2, ![32, 512]⟩
abbrev S_ : Shape := ⟨0, ![]⟩
abbrev S512 : Shape := ⟨1, ![512]⟩
abbrev S1x512 : Shape := ⟨2, ![1, 512]⟩
abbrev S512x64 : Shape := ⟨2, ![512, 64]⟩
abbrev S32x512x32 : Shape := ⟨3, ![32, 512, 32]⟩
abbrev S512x1024 : Shape := ⟨2, ![512, 1024]⟩
abbrev S1x512x32 : Shape := ⟨3, ![1, 512, 32]⟩
abbrev S512x512 : Shape := ⟨2, ![512, 512]⟩
abbrev S1024x1024 : Shape := ⟨2, ![1024, 1024]⟩

abbrev nBuf : Space → Nat
  | .hbm => 22
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2097152, .f32⟩
  | .hbm, ⟨2, _⟩ => ⟨S512x32, .f32⟩
  | .hbm, ⟨3, _⟩ => ⟨S2097152, .bf16⟩
  | .hbm, ⟨4, _⟩ => ⟨S2048x32x32, .bf16⟩
  | .hbm, ⟨5, _⟩ => ⟨S32x2048x32, .bf16⟩
  | .hbm, ⟨6, _⟩ => ⟨S32x512, .f32⟩
  | .hbm, ⟨7, _⟩ => ⟨S_, .f32⟩
  | .hbm, ⟨8, _⟩ => ⟨S32x512, .f32⟩
  | .hbm, ⟨9, _⟩ => ⟨S32x512, .f32⟩
  | .hbm, ⟨10, _⟩ => ⟨S32x512, .bf16⟩
  | .hbm, ⟨11, _⟩ => ⟨S512x32, .f32⟩
  | .hbm, ⟨12, _⟩ => ⟨S_, .f32⟩
  | .hbm, ⟨13, _⟩ => ⟨S512, .f32⟩
  | .hbm, ⟨14, _⟩ => ⟨S1x512, .f32⟩
  | .hbm, ⟨15, _⟩ => ⟨S1x512, .f32⟩
  | .hbm, ⟨16, _⟩ => ⟨S_, .f32⟩
  | .hbm, ⟨17, _⟩ => ⟨S512x32, .f32⟩
  | .hbm, ⟨18, _⟩ => ⟨S512x64, .f32⟩
  | .hbm, ⟨19, _⟩ => ⟨S512x64, .bf16⟩
  | .hbm, ⟨20, _⟩ => ⟨S2048x1024, .f32⟩
  | .hbm, ⟨21, _⟩ => ⟨S2048x1024, .f32⟩
  | .local _ .vmem, ⟨0, _⟩ => ⟨S32x512x32, .bf16⟩
  | .local _ .vmem, ⟨1, _⟩ => ⟨S32x512x32, .bf16⟩
  | .local _ .vmem, ⟨2, _⟩ => ⟨S32x512, .bf16⟩
  | .local _ .vmem, ⟨3, _⟩ => ⟨S1x512, .f32⟩
  | .local _ .vmem, ⟨4, _⟩ => ⟨S512x64, .bf16⟩
  | .local _ .vmem, ⟨5, _⟩ => ⟨S512x1024, .f32⟩
  | .local _ .vmem, ⟨6, _⟩ => ⟨S512x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  shapeCasts_S2097152_S2048x32x32 : S2097152.ShapeCasts S2048x32x32
  transposes_S2048x32x32_S32x2048x32_1_0_2 : S2048x32x32.Transposes [1, 0, 2] S32x2048x32
  transposes_S512x32_S32x512_1_0 : S512x32.Transposes [1, 0] S32x512
  bcast_S_S32x512 : S_.BroadcastsInDim S32x512 (![] : Fin 0 → Fin S32x512.rank)
  reducesTo_S512x32_S512_d1 : S512x32.ReducesTo [1] S512
  h_S_ : 0 < S_.numel
  bcast_S512_S1x512_1 : S512.BroadcastsInDim S1x512 (![1] : Fin 1 → Fin S1x512.rank)
  bcast_S_S512x32 : S_.BroadcastsInDim S512x32 (![] : Fin 0 → Fin S512x32.rank)
  concatenates_S512x32_S512x32_S512x64_d1 : Shape.Concatenates [S512x32, S512x32] S512x64 1
  inb_S32x512x32_S1x512x32_0_0_0 : ∀ a, (![0, 0, 0] : Fin 3 → Nat) a + S1x512x32.size a ≤ S32x512x32.size a
  h_S1x512x32 : 0 < S1x512x32.numel
  shapeCasts_S1x512x32_S512x32 : S1x512x32.ShapeCasts S512x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  slices_S512x64_o0_0_S512x32 : S512x64.Slices ![0, 0] S512x32
  slices_S512x64_o0_32_S512x32 : S512x64.Slices ![0, 32] S512x32
  inb_S512x1024_S512x32_0_0 : ∀ a, (![0, 0] : Fin 2 → Nat) a + S512x32.size a ≤ S512x1024.size a
  h_S512x32 : 0 < S512x32.numel
  inb_S32x512x32_S1x512x32_1_0_0 : ∀ a, (![1, 0, 0] : Fin 3 → Nat) a + S1x512x32.size a ≤ S32x512x32.size a
  inb_S512x1024_S512x32_0_32 : ∀ a, (![0, 32] : Fin 2 → Nat) a + S512x32.size a ≤ S512x1024.size a
  inb_S32x512x32_S1x512x32_2_0_0 : ∀ a, (![2, 0, 0] : Fin 3 → Nat) a + S1x512x32.size a ≤ S32x512x32.size a
  inb_S512x1024_S512x32_0_64 : ∀ a, (![0, 64] : Fin 2 → Nat) a + S512x32.size a ≤ S512x1024.size a
  inb_S32x512x32_S1x512x32_3_0_0 : ∀ a, (![3, 0, 0] : Fin 3 → Nat) a + S1x512x32.size a ≤ S32x512x32.size a
  inb_S512x1024_S512x32_0_96 : ∀ a, (![0, 96] : Fin 2 → Nat) a + S512x32.size a ≤ S512x1024.size a
  inb_S32x512x32_S1x512x32_4_0_0 : ∀ a, (![4, 0, 0] : Fin 3 → Nat) a + S1x512x32.size a ≤ S32x512x32.size a
  inb_S512x1024_S512x32_0_128 : ∀ a, (![0, 128] : Fin 2 → Nat) a + S512x32.size a ≤ S512x1024.size a
  inb_S32x512x32_S1x512x32_5_0_0 : ∀ a, (![5, 0, 0] : Fin 3 → Nat) a + S1x512x32.size a ≤ S32x512x32.size a
  inb_S512x1024_S512x32_0_160 : ∀ a, (![0, 160] : Fin 2 → Nat) a + S512x32.size a ≤ S512x1024.size a
  inb_S32x512x32_S1x512x32_6_0_0 : ∀ a, (![6, 0, 0] : Fin 3 → Nat) a + S1x512x32.size a ≤ S32x512x32.size a
  inb_S512x1024_S512x32_0_192 : ∀ a, (![0, 192] : Fin 2 → Nat) a + S512x32.size a ≤ S512x1024.size a
  inb_S32x512x32_S1x512x32_7_0_0 : ∀ a, (![7, 0, 0] : Fin 3 → Nat) a + S1x512x32.size a ≤ S32x512x32.size a
  inb_S512x1024_S512x32_0_224 : ∀ a, (![0, 224] : Fin 2 → Nat) a + S512x32.size a ≤ S512x1024.size a
  inb_S32x512x32_S1x512x32_8_0_0 : ∀ a, (![8, 0, 0] : Fin 3 → Nat) a + S1x512x32.size a ≤ S32x512x32.size a
  inb_S512x1024_S512x32_0_256 : ∀ a, (![0, 256] : Fin 2 → Nat) a + S512x32.size a ≤ S512x1024.size a
  inb_S32x512x32_S1x512x32_9_0_0 : ∀ a, (![9, 0, 0] : Fin 3 → Nat) a + S1x512x32.size a ≤ S32x512x32.size a
  inb_S512x1024_S512x32_0_288 : ∀ a, (![0, 288] : Fin 2 → Nat) a + S512x32.size a ≤ S512x1024.size a
  inb_S32x512x32_S1x512x32_10_0_0 : ∀ a, (![10, 0, 0] : Fin 3 → Nat) a + S1x512x32.size a ≤ S32x512x32.size a
  inb_S512x1024_S512x32_0_320 : ∀ a, (![0, 320] : Fin 2 → Nat) a + S512x32.size a ≤ S512x1024.size a
  inb_S32x512x32_S1x512x32_11_0_0 : ∀ a, (![11, 0, 0] : Fin 3 → Nat) a + S1x512x32.size a ≤ S32x512x32.size a
  inb_S512x1024_S512x32_0_352 : ∀ a, (![0, 352] : Fin 2 → Nat) a + S512x32.size a ≤ S512x1024.size a
  inb_S32x512x32_S1x512x32_12_0_0 : ∀ a, (![12, 0, 0] : Fin 3 → Nat) a + S1x512x32.size a ≤ S32x512x32.size a
  inb_S512x1024_S512x32_0_384 : ∀ a, (![0, 384] : Fin 2 → Nat) a + S512x32.size a ≤ S512x1024.size a
  inb_S32x512x32_S1x512x32_13_0_0 : ∀ a, (![13, 0, 0] : Fin 3 → Nat) a + S1x512x32.size a ≤ S32x512x32.size a
  inb_S512x1024_S512x32_0_416 : ∀ a, (![0, 416] : Fin 2 → Nat) a + S512x32.size a ≤ S512x1024.size a
  inb_S32x512x32_S1x512x32_14_0_0 : ∀ a, (![14, 0, 0] : Fin 3 → Nat) a + S1x512x32.size a ≤ S32x512x32.size a
  inb_S512x1024_S512x32_0_448 : ∀ a, (![0, 448] : Fin 2 → Nat) a + S512x32.size a ≤ S512x1024.size a
  inb_S32x512x32_S1x512x32_15_0_0 : ∀ a, (![15, 0, 0] : Fin 3 → Nat) a + S1x512x32.size a ≤ S32x512x32.size a
  inb_S512x1024_S512x32_0_480 : ∀ a, (![0, 480] : Fin 2 → Nat) a + S512x32.size a ≤ S512x1024.size a
  inb_S32x512x32_S1x512x32_16_0_0 : ∀ a, (![16, 0, 0] : Fin 3 → Nat) a + S1x512x32.size a ≤ S32x512x32.size a
  inb_S512x1024_S512x32_0_512 : ∀ a, (![0, 512] : Fin 2 → Nat) a + S512x32.size a ≤ S512x1024.size a
  inb_S32x512x32_S1x512x32_17_0_0 : ∀ a, (![17, 0, 0] : Fin 3 → Nat) a + S1x512x32.size a ≤ S32x512x32.size a
  inb_S512x1024_S512x32_0_544 : ∀ a, (![0, 544] : Fin 2 → Nat) a + S512x32.size a ≤ S512x1024.size a
  inb_S32x512x32_S1x512x32_18_0_0 : ∀ a, (![18, 0, 0] : Fin 3 → Nat) a + S1x512x32.size a ≤ S32x512x32.size a
  inb_S512x1024_S512x32_0_576 : ∀ a, (![0, 576] : Fin 2 → Nat) a + S512x32.size a ≤ S512x1024.size a
  inb_S32x512x32_S1x512x32_19_0_0 : ∀ a, (![19, 0, 0] : Fin 3 → Nat) a + S1x512x32.size a ≤ S32x512x32.size a
  inb_S512x1024_S512x32_0_608 : ∀ a, (![0, 608] : Fin 2 → Nat) a + S512x32.size a ≤ S512x1024.size a
  inb_S32x512x32_S1x512x32_20_0_0 : ∀ a, (![20, 0, 0] : Fin 3 → Nat) a + S1x512x32.size a ≤ S32x512x32.size a
  inb_S512x1024_S512x32_0_640 : ∀ a, (![0, 640] : Fin 2 → Nat) a + S512x32.size a ≤ S512x1024.size a
  inb_S32x512x32_S1x512x32_21_0_0 : ∀ a, (![21, 0, 0] : Fin 3 → Nat) a + S1x512x32.size a ≤ S32x512x32.size a
  inb_S512x1024_S512x32_0_672 : ∀ a, (![0, 672] : Fin 2 → Nat) a + S512x32.size a ≤ S512x1024.size a
  inb_S32x512x32_S1x512x32_22_0_0 : ∀ a, (![22, 0, 0] : Fin 3 → Nat) a + S1x512x32.size a ≤ S32x512x32.size a
  inb_S512x1024_S512x32_0_704 : ∀ a, (![0, 704] : Fin 2 → Nat) a + S512x32.size a ≤ S512x1024.size a
  inb_S32x512x32_S1x512x32_23_0_0 : ∀ a, (![23, 0, 0] : Fin 3 → Nat) a + S1x512x32.size a ≤ S32x512x32.size a
  inb_S512x1024_S512x32_0_736 : ∀ a, (![0, 736] : Fin 2 → Nat) a + S512x32.size a ≤ S512x1024.size a
  inb_S32x512x32_S1x512x32_24_0_0 : ∀ a, (![24, 0, 0] : Fin 3 → Nat) a + S1x512x32.size a ≤ S32x512x32.size a
  inb_S512x1024_S512x32_0_768 : ∀ a, (![0, 768] : Fin 2 → Nat) a + S512x32.size a ≤ S512x1024.size a
  inb_S32x512x32_S1x512x32_25_0_0 : ∀ a, (![25, 0, 0] : Fin 3 → Nat) a + S1x512x32.size a ≤ S32x512x32.size a
  inb_S512x1024_S512x32_0_800 : ∀ a, (![0, 800] : Fin 2 → Nat) a + S512x32.size a ≤ S512x1024.size a
  inb_S32x512x32_S1x512x32_26_0_0 : ∀ a, (![26, 0, 0] : Fin 3 → Nat) a + S1x512x32.size a ≤ S32x512x32.size a
  inb_S512x1024_S512x32_0_832 : ∀ a, (![0, 832] : Fin 2 → Nat) a + S512x32.size a ≤ S512x1024.size a
  inb_S32x512x32_S1x512x32_27_0_0 : ∀ a, (![27, 0, 0] : Fin 3 → Nat) a + S1x512x32.size a ≤ S32x512x32.size a
  inb_S512x1024_S512x32_0_864 : ∀ a, (![0, 864] : Fin 2 → Nat) a + S512x32.size a ≤ S512x1024.size a
  inb_S32x512x32_S1x512x32_28_0_0 : ∀ a, (![28, 0, 0] : Fin 3 → Nat) a + S1x512x32.size a ≤ S32x512x32.size a
  inb_S512x1024_S512x32_0_896 : ∀ a, (![0, 896] : Fin 2 → Nat) a + S512x32.size a ≤ S512x1024.size a
  inb_S32x512x32_S1x512x32_29_0_0 : ∀ a, (![29, 0, 0] : Fin 3 → Nat) a + S1x512x32.size a ≤ S32x512x32.size a
  inb_S512x1024_S512x32_0_928 : ∀ a, (![0, 928] : Fin 2 → Nat) a + S512x32.size a ≤ S512x1024.size a
  inb_S32x512x32_S1x512x32_30_0_0 : ∀ a, (![30, 0, 0] : Fin 3 → Nat) a + S1x512x32.size a ≤ S32x512x32.size a
  inb_S512x1024_S512x32_0_960 : ∀ a, (![0, 960] : Fin 2 → Nat) a + S512x32.size a ≤ S512x1024.size a
  inb_S32x512x32_S1x512x32_31_0_0 : ∀ a, (![31, 0, 0] : Fin 3 → Nat) a + S1x512x32.size a ≤ S32x512x32.size a
  inb_S512x1024_S512x32_0_992 : ∀ a, (![0, 992] : Fin 2 → Nat) a + S512x32.size a ≤ S512x1024.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S512x32_S32x512_S512x512_1_0_0_1_n_n_wf : DotDims.WF S512x32 S32x512 S512x512 [1] [0] [0] [1] [] []
  dot_S512x512_S512x64_S512x64_1_0_0_1_n_n_wf : DotDims.WF S512x512 S512x64 S512x64 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x32.size a ≤ S32x2048x32.size a
  hwx0_0 : ∀ i : grid0.Coords, EltTy.bits .bf16 = 32 ∨ (Rect.block (s := S32x2048x32) S32x512x32.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .bf16 = 32 ∨ (Rect.block (s := S32x512) S32x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .bf16 = 32 ∨ (Rect.block (s := S512x64) S512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S2048x1024.size a
  hwx0_4 : ∀ i : grid0.Coords, EltTy.bits .f32 = 32 ∨ (Rect.block (s := S2048x1024) S512x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S2048x1024.size a
  hwx1_0 : ∀ i : grid1.Coords, EltTy.bits .f32 = 32 ∨ (Rect.block (s := S2048x1024) S1024x1024.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S2048x1024.size a
  hwx1_1 : ∀ i : grid1.Coords, EltTy.bits .f32 = 32 ∨ (Rect.block (s := S2048x1024) S1024x1024.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S2048x1024.size a
  hwx1_2 : ∀ i : grid1.Coords, EltTy.bits .f32 = 32 ∨ (Rect.block (s := S2048x1024) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S2048x1024.size a
  hwx1_3 : ∀ i : grid1.Coords, EltTy.bits .f32 = 32 ∨ (Rect.block (s := S2048x1024) S1024x1024.size (cc1_transform_3 i) (hinb1_3 i)).WholeWords (EltTy.packing .f32)

variable [Facts₀]

def dot_S512x32_S32x512_S512x512_1_0_0_1_n_n : DotDims S512x32 S32x512 S512x512 where
  lhsContracting := [1]
  rhsContracting := [0]
  lhsNonContracting := [0]
  rhsNonContracting := [1]
  lhsBatch := []
  rhsBatch := []
  wf := dot_S512x32_S32x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v2) S32x512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1024x1024.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1024x1024.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2048x1024 : Shape := ⟨2, ![2048, 1024]⟩
abbrev S2097152 : Shape := ⟨1, ![2097152]⟩
abbrev S512x32 : Shape := ⟨2, ![512, 32]⟩
abbrev S1048576 : Shape := ⟨1, ![1048576]⟩
abbrev S32768x32 : Shape := ⟨2, ![32768, 32]⟩
abbrev S_ : Shape := ⟨0, ![]⟩
abbrev S32768 : Shape := ⟨1, ![32768]⟩
abbrev S32768x1 : Shape := ⟨2, ![32768, 1]⟩
abbrev S32x512 : Shape := ⟨2, ![32, 512]⟩
abbrev S32768x512 : Shape := ⟨2, ![32768, 512]⟩
abbrev S512 : Shape := ⟨1, ![512]⟩
abbrev S1x512 : Shape := ⟨2, ![1, 512]⟩
abbrev S1024x1024 : Shape := ⟨2, ![1024, 1024]⟩

abbrev nBuf : Space → Nat
  | .hbm => 82
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2097152, .f32⟩
  | .hbm, ⟨2, _⟩ => ⟨S512x32, .f32⟩
  | .hbm, ⟨3, _⟩ => ⟨S1048576, .f32⟩
  | .hbm, ⟨4, _⟩ => ⟨S32768x32, .f32⟩
  | .hbm, ⟨5, _⟩ => ⟨S32768x32, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S32x512, .f32⟩
  | .hbm, ⟨10, _⟩ => ⟨S32768x512, .f32⟩
  | .hbm, ⟨11, _⟩ => ⟨S_, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S512x32, .f32⟩
  | .hbm, ⟨17, _⟩ => ⟨S_, .f32⟩
  | .hbm, ⟨18, _⟩ => ⟨S512, .f32⟩
  | .hbm, ⟨19, _⟩ => ⟨S1x512, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S_, .f32⟩
  | .hbm, ⟨24, _⟩ => ⟨S32768, .f32⟩
  | .hbm, ⟨25, _⟩ => ⟨S_, .f32⟩
  | .hbm, ⟨26, _⟩ => ⟨S32768, .f32⟩
  | .hbm, ⟨27, _⟩ => ⟨S32768, .f32⟩
  | .hbm, ⟨28, _⟩ => ⟨S32768x1, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S32768x512, .f32⟩
  | .hbm, ⟨36, _⟩ => ⟨S32768x512, .f32⟩
  | .hbm, ⟨37, _⟩ => ⟨S32768x32, .f32⟩
  | .hbm, ⟨38, _⟩ => ⟨S1048576, .f32⟩
  | .hbm, ⟨39, _⟩ => ⟨S1024x1024, .f32⟩
  | .hbm, ⟨40, _⟩ => ⟨S1048576, .f32⟩
  | .hbm, ⟨41, _⟩ => ⟨S32768x32, .f32⟩
  | .hbm, ⟨42, _⟩ => ⟨S32768x32, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S32x512, .f32⟩
  | .hbm, ⟨47, _⟩ => ⟨S32768x512, .f32⟩
  | .hbm, ⟨48, _⟩ => ⟨S_, .f32⟩
  | .hbm, ⟨49, _⟩ => ⟨S32768x512, .f32⟩
  | .hbm, ⟨50, _⟩ => ⟨S32768x512, .f32⟩
  | .hbm, ⟨51, _⟩ => ⟨S32768x512, .f32⟩
  | .hbm, ⟨52, _⟩ => ⟨S32768x512, .f32⟩
  | .hbm, ⟨53, _⟩ => ⟨S512x32, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S32768x512, .f32⟩
  | .hbm, ⟨58, _⟩ => ⟨S32768x512, .f32⟩
  | .hbm, ⟨59, _⟩ => ⟨S32768x512, .f32⟩
  | .hbm, ⟨60, _⟩ => ⟨S_, .f32⟩
  | .hbm, ⟨61, _⟩ => ⟨S32768, .f32⟩
  | .hbm, ⟨62, _⟩ => ⟨S_, .f32⟩
  | .hbm, ⟨63, _⟩ => ⟨S32768, .f32⟩
  | .hbm, ⟨64, _⟩ => ⟨S32768, .f32⟩
  | .hbm, ⟨65, _⟩ => ⟨S32768x1, .f32⟩
  | .hbm, ⟨66, _⟩ => ⟨S32768x512, .f32⟩
  | .hbm, ⟨67, _⟩ => ⟨S32768x512, .f32⟩
  | .hbm, ⟨68, _⟩ => ⟨S32768x512, .f32⟩
  | .hbm, ⟨69, _⟩ => ⟨S_, .f32⟩
  | .hbm, ⟨70, _⟩ => ⟨S32768, .f32⟩
  | .hbm, ⟨71, _⟩ => ⟨S32768x1, .f32⟩
  | .hbm, ⟨72, _⟩ => ⟨S32768x512, .f32⟩
  | .hbm, ⟨73, _⟩ => ⟨S32768x512, .f32⟩
  | .hbm, ⟨74, _⟩ => ⟨S32768x32, .f32⟩
  | .hbm, ⟨75, _⟩ => ⟨S1048576, .f32⟩
  | .hbm, ⟨76, _⟩ => ⟨S1024x1024, .f32⟩
  | .hbm, ⟨77, _⟩ => ⟨S2048x1024, .f32⟩
  | .hbm, ⟨78, _⟩ => ⟨S_, .f32⟩
  | .hbm, ⟨79, _⟩ => ⟨S2048x1024, .f32⟩
  | .hbm, ⟨80, _⟩ => ⟨S2048x1024, .f32⟩
  | .hbm, ⟨81, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_call0_cst : Ref sig .tc := ⟨.hbm, 78, rfl⟩
abbrev main_call0_v0 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]

class Facts₀ : Prop where
  slices_S2097152_S1048576_0 : S2097152.Slices ![0] S1048576
  shapeCasts_S1048576_S32768x32 : S1048576.ShapeCasts S32768x32
  reducesTo_S32768x32_S32768_d1 : S32768x32.ReducesTo [1] S32768
  h_S_ : 0 < S_.numel
  bcast_S32768_S32768x1_0 : S32768.BroadcastsInDim S32768x1 (![0] : Fin 1 → Fin S32768x1.rank)
  transposes_S512x32_S32x512_1_0 : S512x32.Transposes [1, 0] S32x512
  bcast_S_S32768x512 : S_.BroadcastsInDim S32768x512 (![] : Fin 0 → Fin S32768x512.rank)
  bcast_S32768x1_S32768x512_0_1 : S32768x1.BroadcastsInDim S32768x512 (![0, 1] : Fin 2 → Fin S32768x512.rank)
  reducesTo_S512x32_S512_d1 : S512x32.ReducesTo [1] S512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  reducesTo_S32768x512_S32768_d1 : S32768x512.ReducesTo [1] S32768
  bcast_S_S32768 : S_.BroadcastsInDim S32768 (![] : Fin 0 → Fin S32768.rank)
  shapeCasts_S32768x32_S1048576 : S32768x32.ShapeCasts S1048576
  shapeCasts_S1048576_S1024x1024 : S1048576.ShapeCasts S1024x1024
  slices_S2097152_S1048576_1048576 : S2097152.Slices ![1048576] S1048576
  bcast_S_S2048x1024 : S_.BroadcastsInDim S2048x1024 (![] : Fin 0 → Fin S2048x1024.rank)
  dot_S32768x32_S32x512_S32768x512_1_0_0_1_n_n_wf : DotDims.WF S32768x32 S32x512 S32768x512 [1] [0] [0] [1] [] []
  dot_S32768x512_S512x32_S32768x32_1_0_0_1_n_n_wf : DotDims.WF S32768x512 S512x32 S32768x32 [1] [0] [0] [1] [] []
  dot_S2048x1024_S1024x1024_S2048x1024_1_0_0_1_n_n_wf : DotDims.WF S2048x1024 S1024x1024 S2048x1024 [1] [0] [0] [1] [] []

variable [Facts₀]

def dot_S32768x32_S32x512_S32768x512_1_0_0_1_n_n : DotDims S32768x32 S32x512 S32768x512 where
  lhsContracting := [1]
  rhsContracting := [0]
  lhsNonContracting := [0]
  rhsNonContracting := [1]
  lhsBatch := []
  rhsBatch := []
  wf := dot_S32768x32_S32x512_S32768x512_1_0_0_1_n_n_wf
def dot_S32768x512_S512x32_S32768x32_1_0_0_1_n_n : DotDims S32768x512 S512x32 S32768x32 where
  lhsContracting := [1]
  rhsContracting := [0]
  lhsNonContracting := [0]
  rhsNonContracting := [1]
  lhsBatch := []
  rhsBatch := []
  wf := dot_S32768x512_S512x32_S32768x32_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

class Facts : Prop extends Facts₀ where

variable [Facts]
-- ==== Proof.KI.Out0.lean ====
/-
  What one grid point of the quantizer leaves in its output block, as a function of the four input blocks.

  The body handles the 32 column groups one after the other. For group `j` it takes slab `j` of the code block
  (512 code vectors of 32 numbers), multiplies it into the doubled, transposed codebook, adds the row of negated
  squared norms, exponentiates, multiplies by the codebook widened with 32 columns of ones, and stores
  `numerator · (1 / denominator)` into columns `32 j … 32 j + 31` of the 512 × 1024 output block (`quantBlock`).
  The 32 stores tile the block, so the block after the body is the `View.canon` of those 32 pieces.
-/
import proofs.«130315_g53111565582714_cont_9to1c4b_343_14_alg».proof.Proof.Gen.KernelIdeal
import Idealize.ShloMosaic.Lib.Pipeline.FrameBody

noncomputable section

namespace Cert.KernelIdeal.Hand

open Idealize.ShloMosaic Idealize.SL.Sem Cert.KernelIdeal Cert.KernelIdeal.Facts₀ Cert.KernelIdeal.Facts

variable {F : FTy → Type} [FloatOps F]

/-- One column group's arithmetic: from a slab `v` of the code block, the doubled transposed codebook `mm`, the
    row `b` of negated squared norms and the widened codebook `ca`:
    `(exp (v · mm + b) · ca)[:, 0:32] * (1 / (exp (v · mm + b) · ca)[:, 32:64])`. -/
def quantBlock (v : Vec F S1x512x32 .bf16) (mm : Vec F S32x512 .bf16) (b : Vec F S1x512 .f32) (ca : Vec F S512x64 .bf16) :
    FVec F S512x32 .f32 :=
  mulf (extractStridedSlice S512x32 ![0, 0]
      (matmul dot_S512x512_S512x64_S512x64_1_0_0_1_n_n none
        (truncf .bf16 (exp (addf
          (matmul dot_S512x32_S32x512_S512x512_1_0_0_1_n_n none (shapeCast S512x32 v shapeCasts_S1x512x32_S512x32)
            (shapeCast S32x512 mm shapeCasts_S32x512_S32x512) (constant S512x512 .f32 0x00000000#32))
          (broadcastTo S512x512 (shapeCast S1x512 b shapeCasts_S1x512_S1x512) broadcasts_S1x512_S512x512))) bitsLt_bf16_f32)
        (shapeCast S512x64 ca shapeCasts_S512x64_S512x64) (constant S512x64 .f32 0x00000000#32))
      slices_S512x64_o0_0_S512x32)
    (divf (broadcast S512x32 (Scalar.ofBits .f32 0x3F800000#32))
      (extractStridedSlice S512x32 ![0, 32]
        (matmul dot_S512x512_S512x64_S512x64_1_0_0_1_n_n none
          (truncf .bf16 (exp (addf
            (matmul dot_S512x32_S32x512_S512x512_1_0_0_1_n_n none (shapeCast S512x32 v shapeCasts_S1x512x32_S512x32)
              (shapeCast S32x512 mm shapeCasts_S32x512_S32x512) (constant S512x512 .f32 0x00000000#32))
            (broadcastTo S512x512 (shapeCast S1x512 b shapeCasts_S1x512_S1x512) broadcasts_S1x512_S512x512))) bitsLt_bf16_f32)
          (shapeCast S512x64 ca shapeCasts_S512x64_S512x64) (constant S512x64 .f32 0x00000000#32))
        slices_S512x64_o0_32_S512x32))

theorem slab_inb (j : Fin 32) : ∀ a, (![0, 32 * j.val] : Fin 2 → Nat) a + S512x32.size a ≤ S512x1024.size a := by
  intro a; have := j.isLt
  match a with
  | ⟨0, _⟩ => show (0 : ℕ) + 512 ≤ 512; omega
  | ⟨1, _⟩ => show 32 * j.val + 32 ≤ 1024; omega
theorem row_inb (j : Fin 32) : ∀ a, (![j.val, 0, 0] : Fin 3 → Nat) a + S1x512x32.size a ≤ S32x512x32.size a := by
  intro a; have := j.isLt
  match a with
  | ⟨0, _⟩ => show j.val + 1 ≤ 32; omega
  | ⟨1, _⟩ => show (0 : ℕ) + 512 ≤ 512; omega
  | ⟨2, _⟩ => show (0 : ℕ) + 32 ≤ 32; omega

/-- Columns `32 j … 32 j + 31` of the output block. -/
def slab (j : Fin 32) : Rect S512x1024 := Rect.unit (s := S512x1024) ![0, 32 * j.val] S512x32.size (slab_inb j)
/-- Slab `j` of the code block: the 512 code vectors of column group `j`. -/
def row (j : Fin 32) : Rect S32x512x32 := Rect.unit (s := S32x512x32) ![j.val, 0, 0] S1x512x32.size (row_inb j)

abbrev r1 : Rect S32x512 := Rect.unit (s := S32x512) ![0, 0] S32x512.size inb_S32x512_S32x512_0_0
abbrev r2 : Rect S1x512 := Rect.unit (s := S1x512) ![0, 0] S1x512.size inb_S1x512_S1x512_0_0
abbrev r3 : Rect S512x64 := Rect.unit (s := S512x64) ![0, 0] S512x64.size inb_S512x64_S512x64_0_0

/-- The store of column group `j`, as a piece of the output block. -/
def qpiece (x0 : Vec F S32x512x32 .bf16) (x1 : Vec F S32x512 .bf16) (x2 : Vec F S1x512 .f32) (x3 : Vec F S512x64 .bf16)
    (j : Fin 32) : View.Piece (Elt F) S512x1024 .f32 :=
  ⟨slab j, quantBlock (View.ld x0 (row j)) (View.ld x1 r1) (View.ld x2 r2) (View.ld x3 r3)⟩

/-- The output block after the body: its 32 stores as pieces, the last store first. -/
def out0_4 (x0 : Vec F S32x512x32 .bf16) (x1 : Vec F S32x512 .bf16) (x2 : Vec F S1x512 .f32) (x3 : Vec F S512x64 .bf16) :
    Vec F S512x1024 .f32 :=
  View.canon [qpiece x0 x1 x2 x3 31,
    qpiece x0 x1 x2 x3 30,
    qpiece x0 x1 x2 x3 29,
    qpiece x0 x1 x2 x3 28,
    qpiece x0 x1 x2 x3 27,
    qpiece x0 x1 x2 x3 26,
    qpiece x0 x1 x2 x3 25,
    qpiece x0 x1 x2 x3 24,
    qpiece x0 x1 x2 x3 23,
    qpiece x0 x1 x2 x3 22,
    qpiece x0 x1 x2 x3 21,
    qpiece x0 x1 x2 x3 20,
    qpiece x0 x1 x2 x3 19,
    qpiece x0 x1 x2 x3 18,
    qpiece x0 x1 x2 x3 17,
    qpiece x0 x1 x2 x3 16,
    qpiece x0 x1 x2 x3 15,
    qpiece x0 x1 x2 x3 14,
    qpiece x0 x1 x2 x3 13,
    qpiece x0 x1 x2 x3 12,
    qpiece x0 x1 x2 x3 11,
    qpiece x0 x1 x2 x3 10,
    qpiece x0 x1 x2 x3 9,
    qpiece x0 x1 x2 x3 8,
    qpiece x0 x1 x2 x3 7,
    qpiece x0 x1 x2 x3 6,
    qpiece x0 x1 x2 x3 5,
    qpiece x0 x1 x2 x3 4,
    qpiece x0 x1 x2 x3 3,
    qpiece x0 x1 x2 x3 2,
    qpiece x0 x1 x2 x3 1,
    qpiece x0 x1 x2 x3 0]

end Cert.KernelIdeal.Hand

end
-- ==== Proof.KI.Bodies.lean ====
/-
  The two kernel bodies as separation-logic triples, at any float instance.

  Quantizer body: run on whole staging buffers holding the code block `x0`, the doubled transposed codebook `x1`,
  the row of negated squared norms `x2` and the widened codebook `x3`, it leaves the four inputs as they were and
  the output buffer at `out0_4 x0 x1 x2 x3` (its 32 column-group stores, which tile the block).
  Perceptron body: on buffers holding a block `x0` of activations and the two weight halves `x1`, `x2`, it leaves
  the output buffer at `relu (x0 · x1) · x2`, stored whole (`out1_3`).
-/
import proofs.«130315_g53111565582714_cont_9to1c4b_343_14_alg».proof.Proof.KI.Out0
import proofs.«130315_g53111565582714_cont_9to1c4b_343_14_alg».proof.Proof.Gen.KernelIdeal.Skeleton
import proofs.«130315_g53111565582714_cont_9to1c4b_343_14_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-! ## The perceptron body's output block -/

abbrev rW : Rect S1024x1024 := Rect.unit (s := S1024x1024) ![0, 0] S1024x1024.size inb_S1024x1024_S1024x1024_0_0

/-- The output block after the perceptron body: one whole-block store of `relu (x0 · x1) · x2`. -/
def out1_3 (x0 x1 x2 : Vec F S1024x1024 .f32) : Vec F S1024x1024 .f32 :=
  View.canon [⟨rW, k1_pay1 (View.ld x0 rW) (View.ld x1 rW) (View.ld x2 rW)⟩]

theorem cover1_3 (p0 : Vec F S1024x1024 .f32) (y : S1024x1024.Idx) :
    ∃ pc ∈ ([⟨rW, p0⟩] : List (View.Piece (Elt F) S1024x1024 .f32)), y ∈ pc.1.set :=
  View.cover_of_tiled [⟨rW, p0⟩] S1024x1024.size (by rfl) y

/-! ## The quantizer body's output block: its 32 stores cover it -/

/-- The 32 column-group rectangles tile the output block, so any 32 payloads stored through them cover it. -/
theorem cover0_4 (p0 p1 p2 p3 p4 p5 p6 p7 p8 p9 p10 p11 p12 p13 p14 p15 p16 p17 p18 p19 p20 p21 p22 p23 p24 p25 p26 p27 p28 p29 p30 p31 : FVec F S512x32 .f32) (y : S512x1024.Idx) :
    ∃ pc ∈ ([⟨slab 31, p31⟩, ⟨slab 30, p30⟩, ⟨slab 29, p29⟩, ⟨slab 28, p28⟩, ⟨slab 27, p27⟩, ⟨slab 26, p26⟩, ⟨slab 25, p25⟩, ⟨slab 24, p24⟩, ⟨slab 23, p23⟩, ⟨slab 22, p22⟩, ⟨slab 21, p21⟩, ⟨slab 20, p20⟩, ⟨slab 19, p19⟩, ⟨slab 18, p18⟩, ⟨slab 17, p17⟩, ⟨slab 16, p16⟩, ⟨slab 15, p15⟩, ⟨slab 14, p14⟩, ⟨slab 13, p13⟩, ⟨slab 12, p12⟩, ⟨slab 11, p11⟩, ⟨slab 10, p10⟩, ⟨slab 9, p9⟩, ⟨slab 8, p8⟩, ⟨slab 7, p7⟩, ⟨slab 6, p6⟩, ⟨slab 5, p5⟩, ⟨slab 4, p4⟩, ⟨slab 3, p3⟩, ⟨slab 2, p2⟩, ⟨slab 1, p1⟩, ⟨slab 0, p0⟩] : List (View.Piece (Elt F) S512x1024 .f32)), y ∈ pc.1.set :=
  View.cover_of_tiled (s := S512x1024) _ S512x32.size (by rfl) y

/-! ## The triples -/

set_option maxHeartbeats 1000000 in
/-- The quantizer body, run on whole buffers holding `x0 … x3` and an output buffer holding anything, hands back the
    inputs unchanged and the output buffer at `out0_4 x0 x1 x2 x3`: its 32 stores, one per column group, tile the block,
    and each stored value is `quantBlock` of slab `j` of `x0` and of `x1`, `x2`, `x3` read whole. -/
theorem sound_kernel0 (c : Dev nD) (E : Set ℕ) (i : grid0.Coords)
    (arg1 : Memref sig .tc .vmem S32x512x32 .bf16) (harg1 : arg1.IsWhole) (arg2 : Memref sig .tc .vmem S32x512 .bf16) (harg2 : arg2.IsWhole)
    (arg3 : Memref sig .tc .vmem S1x512 .f32) (harg3 : arg3.IsWhole) (arg4 : Memref sig .tc .vmem S512x64 .bf16) (harg4 : arg4.IsWhole)
    (arg5 : Memref sig .tc .vmem S512x1024 .f32) (harg5 : arg5.IsWhole)
    (x0 : Vec F S32x512x32 .bf16) (x1 : Vec F S32x512 .bf16) (x2 : Vec F S1x512 .f32) (x3 : Vec F S512x64 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__quant_kernel i arg1 harg1 arg2 harg2 arg3 harg3 arg4 harg4 arg5 harg5) K := by
  simp only [cc0__quant_kernel_eq_skeleton]; unfold cc0__quant_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _ _ _ _ _ _ _ _ _ _ _ _ _ _ _ _ _ _ _ _ _ _ _ _ _ _ _ _ _ _ _ _)

set_option maxHeartbeats 1000000 in
/-- The perceptron body, run on whole buffers holding `x0`, `x1`, `x2` and an output buffer holding anything, hands back
    the inputs unchanged and the output buffer at `out1_3 x0 x1 x2`: one store of the whole block. -/
theorem sound_kernel1 (c : Dev nD) (E : Set ℕ) (i : grid1.Coords)
    (arg1 : Memref sig .tc .vmem S1024x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1024 .f32) (harg4 : arg4.IsWhole)
    (x0 x1 x2 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__mlp_kernel i arg1 harg1 arg2 harg2 arg3 harg3 arg4 harg4) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

end Cert.KernelIdeal.Hand

end
-- ==== Proof.KI.Dats.lean ====
/-
  The proof data of the two pipelines, at a parameter `V`: the contents of the core's arrays when a region is entered.

  Region 0 (the quantizer, 4 grid points): each input window's staging buffer holds its block of its array at every
  point (the code block of rows `512 t … 512 t + 511`; the three codebook-derived arrays whole), and after the body the
  output window's buffer holds `out0_4` of those blocks, which the pipeline writes back as rows `512 t …` of the weight
  matrix. Region 1 (the perceptron, 2 grid points): the activations' block of rows `1024 t …`, the upper and the lower
  half of the weight matrix — two windows onto ONE array, each holding half of the read share of it —, and the output
  block `out1_3` written back as rows `1024 t …` of the result.
-/
import proofs.«130315_g53111565582714_cont_9to1c4b_343_14_alg».proof.Proof.KI.Bodies
import proofs.«130315_g53111565582714_cont_9to1c4b_343_14_alg».proof.Proof.Gen.KernelIdeal.Points
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the quantizer -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

/-! # Region 1: the perceptron -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1 on core `c`: windows 1 and 2 read one array, each at half of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program as a chain of segments — the host prologue, the quantizer region, the perceptron region — and its
  run from any launch memory: it terminates without a fault, the three argument arrays end as launched, and the result
  array ends at what the perceptron's write-backs leave, `(dat1 …).arrAt 3 N`, over a weight matrix that is what the
  quantizer's write-backs leave, `(dat0 …).arrAt 4 N`, over the host prologue's arrays.

  Between two segments the thread holds every unscoped buffer whole at a named valuation: `W0` the launch memory, `W1`
  after the host prologue, `W2` with the weight matrix replaced, `W3` with the result replaced. The perceptron reads the
  weight matrix through TWO windows (its upper and its lower half): at the region's entry the matrix's buffer is split
  into the two halves of the full share, one per window, and joined again at the exit.
-/
import proofs.«130315_g53111565582714_cont_9to1c4b_343_14_alg».proof.Proof.KI.Dats
import proofs.«130315_g53111565582714_cont_9to1c4b_343_14_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c => Gen.V0 m c
/-- After the host prologue (the quantizer region's entry). -/
abbrev W1 : Dev nD → Valuation τ sig (Elt F) := fun c => Gen.V1 m c
abbrev U1 : (c : Dev nD) → (b : Ref sig .tc) → Buf (Elt F) ((c : Thread nD τ).loc b) := fun c b => W1 m c b
/-- At the quantizer region's exit: the weight matrix at what the write-backs leave, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- At the perceptron region's exit: the result array at what the write-backs leave, every other buffer as entered. -/
def W3 (c : Dev nD) : Valuation τ sig (Elt F) :=
  Function.update (W2 m c) (Proc.devRef .tc main_v15) ((dat1 (U2 m) c).arrAt 3 cfg1.N)
abbrev U3 : (c : Dev nD) → (b : Ref sig .tc) → Buf (Elt F) ((c : Thread nD τ).loc b) := fun c b => W3 m c b
theorem W3_v15 (c : Dev nD) : W3 m c (Proc.devRef .tc main_v15) = (dat1 (U2 m) c).arrAt 3 cfg1.N := by
  unfold W3; exact Function.update_self ..
theorem W3_of_ne (c : Dev nD) (b : Ref sig .tc) (hb : b ≠ main_v15) :
    W3 m c (Proc.devRef .tc b) = W2 m c (Proc.devRef .tc b) := by
  unfold W3; exact Function.update_of_ne (StableHlo.devRef_ne_of_ne hb) ..

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- The host prologue as a segment over the unscoped references from the launch contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev Tₙ (c : Dev nD) : sProp 𝕄 := iprop(StableHlo.held (c : Thread nD τ) (Pipeline.ucRefs τ sig) (W3 m c) ∗ ∃ r, prngReg c r)

/-! ## The quantizer region as a segment -/

set_option backward.isDefEq.respectTransparency.types false in
/-- Entered from every unscoped buffer at `W1`, left at `W2`: its five arrays split out of the unscoped buffers and put
    back at the exit contents; the generator register into the invariant and out; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run1.lean ====
/-
  The perceptron region as a segment of the program's run. Its four windows read three buffers: the activations,
  the weight matrix (through TWO windows, its upper and its lower half) and the result. At the entry the matrix's
  buffer, held whole at the full share, is split into the two halves of that share, one per window; at the exit the
  two halves, both still at the entry contents, are joined again.
-/
import proofs.«130315_g53111565582714_cont_9to1c4b_343_14_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The three buffers behind the perceptron's four windows, listed. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v14) ↦{fullShare} V main_v14)
          ∗ (((c : Thread nD τ).loc main_v15) ↦{fullShare} V main_v15)) := by
  unfold Pipeline.arrBufs
  exact bigSep_eq_bigSepL_of_eq [main_arg0, main_v14, main_v15] (by decide) (by decide) _

/-- The perceptron's arrays, window by window: the activations and the result whole at the full share, the weight matrix
    once at each half of it. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_arg0) ↦{fullShare} G 0) ∗ (((c : Thread nD τ).loc main_v14) ↦{fullShare.left} G 1)
          ∗ (((c : Thread nD τ).loc main_v14) ↦{fullShare.right} G 2) ∗ (((c : Thread nD τ).loc main_v15) ↦{fullShare} G 3)) := by
  unfold Dat.arrays
  rw [bigSep_W1, (arr_whole1 0).set_eq_univ, (arr_whole1 1).set_eq_univ, (arr_whole1 3).set_eq_univ]
  rfl

/-- ENTRY: a core's unscoped buffers at contents `V c` are the perceptron's arrays at the entry contents — the weight
    matrix's buffer split into the two halves of the full share — and the unscoped rest. -/
theorem entry1 (V : (c : Dev nD) → (b : Ref sig .tc) → Buf (Elt F) ((c : Thread nD τ).loc b)) (c : Dev nD) :
    (unscopedBufs c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  have hs : (unscopedBufs c (V c) : sProp 𝕄)
      = iprop(Pipeline.arrBufs (Ix := Unit) (Name := ℕ) (U := UR sig nD τ) (Lvl := ℕ) spec1 c (V c)
          ∗ Pipeline.unscopedRest (Ix := Unit) (Name := ℕ) (U := UR sig nD τ) (Lvl := ℕ) spec1 c (V c)) :=
    Pipeline.unscopedBufs_split₀ cfgs 1 winFacts₀1.arr_unscoped c (V c)
  rw [hs, arrBufs1_eq, arrays1_eq]
  iintro ⟨⟨H0, H14, H15⟩, Hrest⟩
  ihave H := (pointsTo_share (PosShare.mem_left_op_right fullShare)).1 $$ H14
  icases H with ⟨Hl, Hr⟩
  isplitr [Hrest]
  · isplitl [H0]; · iexact H0
    isplitl [Hl]; · iexact Hl
    isplitl [Hr]; · iexact Hr
    iexact H15
  iexact Hrest

/-- EXIT: the perceptron's arrays at their final contents — the two halves of the weight matrix's buffer joined — and
    the unscoped rest are the core's unscoped buffers at any valuation that has the result at what the write-backs
    leave and agrees with the entry contents elsewhere. -/
theorem exit1 (V : (c : Dev nD) → (b : Ref sig .tc) → Buf (Elt F) ((c : Thread nD τ).loc b)) (c : Dev nD)
    (V' : (b : Ref sig .tc) → Buf (Elt F) ((c : Thread nD τ).loc b))
    (h15 : V' main_v15 = (dat1 V c).arrAt 3 cfg1.N) (hrest : ∀ b, b ≠ main_v15 → V' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c V' : sProp 𝕄) := by
  have hs : (unscopedBufs c V' : sProp 𝕄)
      = iprop(Pipeline.arrBufs (Ix := Unit) (Name := ℕ) (U := UR sig nD τ) (Lvl := ℕ) spec1 c V'
          ∗ Pipeline.unscopedRest (Ix := Unit) (Name := ℕ) (U := UR sig nD τ) (Lvl := ℕ) spec1 c V') :=
    Pipeline.unscopedBufs_split₀ cfgs 1 winFacts₀1.arr_unscoped c V'
  have hr : (Pipeline.unscopedRest (Ix := Unit) (Name := ℕ) (U := UR sig nD τ) (Lvl := ℕ) spec1 c (V c) : sProp 𝕄)
      = Pipeline.unscopedRest (Ix := Unit) (Name := ℕ) (U := UR sig nD τ) (Lvl := ℕ) spec1 c V' := by
    unfold Pipeline.unscopedRest
    exact bigSep_congr fun b hb => by
      rw [hrest b fun e => (Finset.mem_sdiff.mp hb).2 (e ▸ Finset.mem_image.mpr ⟨3, Finset.mem_univ _, rfl⟩)]
  have e0 : (dat1 V c).arrAt 0 cfg1.N = V' main_arg0 :=
    ((dat1 V c).arrAt_in 0 rfl _).trans ((A_eq1 V c 0).trans (hrest main_arg0 (by decide)).symm)
  have e1 : (dat1 V c).arrAt 1 cfg1.N = V' main_v14 :=
    ((dat1 V c).arrAt_in 1 rfl _).trans ((A_eq1 V c 1).trans (hrest main_v14 (by decide)).symm)
  have e2 : (dat1 V c).arrAt 2 cfg1.N = V' main_v14 :=
    ((dat1 V c).arrAt_in 2 rfl _).trans ((A_eq1 V c 2).trans (hrest main_v14 (by decide)).symm)
  rw [hs, hr, arrBufs1_eq, arrays1_eq]
  beta_reduce
  rw [e0, e1, e2, ← h15]
  iintro ⟨⟨H0, Hl, Hr, H15⟩, Hrest⟩
  isplitr [Hrest]
  · isplitl [H0]; · iexact H0
    isplitl [Hl Hr]
    · iapply (pointsTo_share (PosShare.mem_left_op_right fullShare)).2
      isplitl [Hl]; · iexact Hl
      iexact Hr
    iexact H15
  iexact Hrest

end Cert.KernelIdeal.Hand

end
-- ==== Proof.KI.Main.lean ====
/-
  The program's run: the host prologue, the quantizer region and the perceptron region chained, from any launch memory.
  Every weakly fair execution terminates without a fault; at the end every unscoped buffer of a core holds the last
  boundary's contents `W3`: the arguments as launched, the weight matrix at what the quantizer's write-backs leave, the
  result at what the perceptron's write-backs leave.
-/
import proofs.«130315_g53111565582714_cont_9to1c4b_343_14_alg».proof.Proof.KI.Run1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The perceptron region as a segment -/

set_option backward.isDefEq.respectTransparency.types false in
/-- Entered from every unscoped buffer at `W2`, left at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := entry1 (U2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (U2 m) c (U3 m c) (W3_v15 m c) (fun b hb => W3_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]

theorem main_run (c : Dev nD) : main (F := F) c = Pipeline.Seg.run (segs m) := (main_chain c).trans (by chain_rfl)

set_option backward.isDefEq.respectTransparency.types false in
/-- Every weakly fair execution from memory `m` terminates, nothing faulting, and every final memory holds every
    unscoped buffer of every core at `W3`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## What the last boundary holds -/

theorem W3_main_arg0 (c : Dev nD) : W3 m c (Proc.devRef .tc main_arg0) = m ((c : Thread nD τ).loc main_arg0) :=
  (W3_of_ne m c main_arg0 (by decide)).trans <| (W2_of_ne m c main_arg0 (by decide)).trans <| (Gen.V1_of m c main_arg0 (by decide)).trans rfl
theorem W3_main_arg1 (c : Dev nD) : W3 m c (Proc.devRef .tc main_arg1) = m ((c : Thread nD τ).loc main_arg1) :=
  (W3_of_ne m c main_arg1 (by decide)).trans <| (W2_of_ne m c main_arg1 (by decide)).trans <| (Gen.V1_of m c main_arg1 (by decide)).trans rfl
theorem W3_main_arg2 (c : Dev nD) : W3 m c (Proc.devRef .tc main_arg2) = m ((c : Thread nD τ).loc main_arg2) :=
  (W3_of_ne m c main_arg2 (by decide)).trans <| (W2_of_ne m c main_arg2 (by decide)).trans <| (Gen.V1_of m c main_arg2 (by decide)).trans rfl

/-- The frame: the program runs to the end, nothing faulting, and the three argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

/-- The run with the result named: the result array ends at what the perceptron's write-backs leave. -/
theorem run_out (ρ : Dev nD → PrngReg) :
    θ_run defs (onTc (τ := τ) (main (F := F))) ⟨m, fun _ => 0, ρ⟩ (fun r => ∀ c : Dev nD,
      r.2.mem ((c.tc : Thread nD τ).loc main_v15) = (dat1 (U2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v15 (by decide))).trans (W3_v15 m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

end Cert.KernelIdeal.Hand

end
-- ==== Proof.Spec.lean ====
/-
  The mathematics of the certificate, stated once over the extended reals with no program in sight.

  A flat parameter vector `p` (2097152 numbers) is read as 65536 code vectors of 32 numbers; code vector `n`
  is softly assigned to the 512 rows of a codebook `cb` and rebuilt as the assignment-weighted mean of the rows.
  The 65536 × 32 rebuilt numbers, read row-major, are a 2048 × 1024 matrix `W`: entry `(r, col)` is coordinate
  `col % 32` of code vector `32 r + col / 32`. Its upper half is the first layer of a two-layer perceptron and
  its lower half the second: `out = relu (x · W[0:1024]) · W[1024:2048]`.

  Two spellings of the soft assignment are compared.
  * `qK` (the kernel's): logits `l k = Σ_e v e · (2 · cb k e) − Σ_e (cb k e)²`, then
    `(Σ_k exp (l k) · cb k d) · (1 / Σ_k exp (l k) · 1)`: no shift by a maximum, the term `|v|²` dropped.
  * `qR M` (the reference's): scores `s k = −(|v|² − 2 · (v · cb k) + |cb k|²)`, weights
    `u k = exp (s k − M)` for a shift `M`, then `Σ_k (u k / Σ_k' u k') · cb k d`.
  For real `v`, `cb` and any real shift `M` they agree: `u k = exp (l k) · exp (−|v|² − M)`, and the common positive
  factor cancels in the quotient.
-/
import Idealize.ShloMosaic.PureOps.Ideal
import Idealize.ShloMosaic.Lib.ValueIdx

noncomputable section

namespace Cert.Spec

open Idealize.ShloMosaic

abbrev S2048x1024 : Shape := ⟨2, ![2048, 1024]⟩
abbrev S2097152 : Shape := ⟨1, ![2097152]⟩
abbrev S512x32 : Shape := ⟨2, ![512, 32]⟩

/-- The f32 literal 2.0 and the f32 literal 1.0, as the words the programs carry. -/
abbrev two : EReal := Ideal.ofBits .f32 0x40000000#32
abbrev one : EReal := Ideal.ofBits .f32 0x3F800000#32

/-- Coordinate `e` of code vector `n` of the flat parameter vector. -/
def code (p : Fin 2097152 → EReal) (n : Fin 65536) (e : Fin 32) : EReal :=
  p ⟨32 * n.val + e.val, by have := n.isLt; have := e.isLt; omega⟩

/-- The code vector that entry `(r, col)` of the weight matrix is rebuilt from, and the coordinate read. -/
def codeOf (r : Fin 2048) (col : Fin 1024) : Fin 65536 :=
  ⟨32 * r.val + col.val / 32, by have := r.isLt; have := col.isLt; omega⟩
def coordOf (col : Fin 1024) : Fin 32 := ⟨col.val % 32, Nat.mod_lt _ (by decide)⟩

/-! ## The kernel's spelling -/

def logitK (v : Fin 32 → EReal) (cb : Fin 512 → Fin 32 → EReal) (k : Fin 512) : EReal :=
  (∑ e : Fin 32, v e * (two * cb k e)) + -(∑ e : Fin 32, cb k e * cb k e)

def qK (v : Fin 32 → EReal) (cb : Fin 512 → Fin 32 → EReal) (d : Fin 32) : EReal :=
  (∑ k : Fin 512, Ideal.exp (logitK v cb k) * cb k d)
    * Ideal.div one (∑ k : Fin 512, Ideal.exp (logitK v cb k) * one)

def WK (p : Fin 2097152 → EReal) (cb : Fin 512 → Fin 32 → EReal) (r : Fin 2048) (col : Fin 1024) : EReal :=
  qK (code p (codeOf r col)) cb (coordOf col)

/-! ## The reference's spelling, at a shift `M` per code vector -/

def scoreR (v : Fin 32 → EReal) (cb : Fin 512 → Fin 32 → EReal) (k : Fin 512) : EReal :=
  -((∑ e : Fin 32, v e * v e) - two * (∑ e : Fin 32, v e * cb k e) + ∑ e : Fin 32, cb k e * cb k e)

def qR (M : EReal) (v : Fin 32 → EReal) (cb : Fin 512 → Fin 32 → EReal) (d : Fin 32) : EReal :=
  ∑ k : Fin 512, Ideal.div (Ideal.exp (scoreR v cb k - M)) (∑ k' : Fin 512, Ideal.exp (scoreR v cb k' - M)) * cb k d

def WR (Mf : Fin 65536 → EReal) (p : Fin 2097152 → EReal) (cb : Fin 512 → Fin 32 → EReal) (r : Fin 2048) (col : Fin 1024) : EReal :=
  qR (Mf (codeOf r col)) (code p (codeOf r col)) cb (coordOf col)

/-! ## The perceptron over a stacked weight matrix -/

def mlp (x : Fin 2048 → Fin 1024 → EReal) (W : Fin 2048 → Fin 1024 → EReal) (r : Fin 2048) (c : Fin 1024) : EReal :=
  ∑ k : Fin 1024, max (∑ j : Fin 1024, x r j * W ⟨j.val, by have := j.isLt; omega⟩ k) 0
    * W ⟨1024 + k.val, by have := k.isLt; omega⟩ c

/-! ## The arrays as coordinate functions -/

def xOf (a0 : S2048x1024.Idx → EReal) : Fin 2048 → Fin 1024 → EReal := fun r c => a0 (ValueIdx.ix2 r c)
def pOf (a1 : S2097152.Idx → EReal) : Fin 2097152 → EReal := fun n => a1 (ValueIdx.ix1 n)
def cbOf (a2 : S512x32.Idx → EReal) : Fin 512 → Fin 32 → EReal := fun k e => a2 (ValueIdx.ix2 k e)

/-- What the kernel computes, as one function of the three argument arrays. -/
def outK (a0 : S2048x1024.Idx → EReal) (a1 : S2097152.Idx → EReal) (a2 : S512x32.Idx → EReal) : S2048x1024.Idx → EReal :=
  fun i => mlp (xOf a0) (WK (pOf a1) (cbOf a2)) (i 0) (i 1)

/-- What the reference computes, its softmax shifted by `Mf n` at code vector `n`. -/
def outR (Mf : Fin 65536 → EReal) (a0 : S2048x1024.Idx → EReal) (a1 : S2097152.Idx → EReal) (a2 : S512x32.Idx → EReal) :
    S2048x1024.Idx → EReal :=
  fun i => mlp (xOf a0) (WR Mf (pOf a1) (cbOf a2)) (i 0) (i 1)

/-! ## The quantizer over its four staged operands

What the first kernel region leaves in the weight matrix, as a function of the four arrays its windows read: the code
vectors regrouped as `A0 (j, r, e)` = coordinate `e` of the code vector behind columns `32 j …` of row `r`; the
doubled transposed codebook `A1 (e, k)`; the row of negated squared norms `A2 (0, k)`; the widened codebook
`A3 (k, ·)`, whose columns `32 …  63` the kernel takes as the ones that make the denominator. -/

abbrev S32x2048x32 : Shape := ⟨3, ![32, 2048, 32]⟩
abbrev S32x512 : Shape := ⟨2, ![32, 512]⟩
abbrev S1x512 : Shape := ⟨2, ![1, 512]⟩
abbrev S512x64 : Shape := ⟨2, ![512, 64]⟩

def logitG {R : ℕ} (A0 : (⟨3, ![32, R, 32]⟩ : Shape).Idx → EReal) (A1 : S32x512.Idx → EReal) (A2 : S1x512.Idx → EReal)
    (j : Fin 32) (r : Fin R) (k : Fin 512) : EReal :=
  (∑ e : Fin 32, A0 (ValueIdx.ix3 j r e) * A1 (ValueIdx.ix2 e k)) + A2 (ValueIdx.ix2 0 k)

def Wgen {R : ℕ} (A0 : (⟨3, ![32, R, 32]⟩ : Shape).Idx → EReal) (A1 : S32x512.Idx → EReal) (A2 : S1x512.Idx → EReal) (A3 : S512x64.Idx → EReal)
    (r : Fin R) (col : Fin 1024) : EReal :=
  (∑ k : Fin 512, Ideal.exp (logitG A0 A1 A2 ⟨col.val / 32, by have := col.isLt; omega⟩ r k)
      * A3 (ValueIdx.ix2 k ⟨col.val % 32, by have := col.isLt; omega⟩))
    * Ideal.div one (∑ k : Fin 512, Ideal.exp (logitG A0 A1 A2 ⟨col.val / 32, by have := col.isLt; omega⟩ r k)
      * A3 (ValueIdx.ix2 k ⟨32 + col.val % 32, by have := col.isLt; omega⟩))

/-- Every entry of an array is a real number. -/
def AllReal {S : Shape} (a : S.Idx → EReal) : Prop := ∀ i, ∃ r : ℝ, a i = (r : EReal)

end Cert.Spec

end
-- ==== Proof.KI.ValueQ.lean ====
/-
  One grid point of the quantizer, read entry by entry over the extended reals.

  For column group `j` the body forms, for each of the 512 code vectors `a` of slab `j` and each codebook row `k`,
  the logit `l a k = Σ_e v (0, a, e) · mm (e, k) + b (0, k)`, and stores at entry `(a, d)`, `d < 32`, the product
  `(Σ_k exp (l a k) · ca (k, d)) · (1 / Σ_k exp (l a k) · ca (k, 32 + d))`: the two matrix products start from zero, so each
  is the plain sum over its contracted axis; the change of float format is the identity; the row of biases is repeated
  down the 512 rows; the numerator is the left half of the widened product and the denominator its right half
  (`quantBlock_apply`).

  The store of group `j` lands in columns `32 j … 32 j + 31` of the 512 × 1024 output block, and slab `j` of the code
  block read at `(0, a, e)` is the code block at `(j, a, e)`. A column `col = 32 j + d` has `col / 32 = j` and
  `col % 32 = d`, so every one of the 32 stores is the restriction, to its rectangle, of ONE function of the block index,
  `(a, col) ↦ Wgen x0 x1 x2 x3 a col`. The 32 rectangles tile the block, hence the block after the body is that function
  everywhere (`out0_4_apply`).
-/
import proofs.«130315_g53111565582714_cont_9to1c4b_343_14_alg».proof.Proof.KI.Out0
import proofs.«130315_g53111565582714_cont_9to1c4b_343_14_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Ring

noncomputable section

namespace Cert.KernelIdeal.Hand

open Idealize.ShloMosaic Idealize.SL.Sem Cert.KernelIdeal Cert.KernelIdeal.Facts₀ Cert.KernelIdeal.Facts ValueIdx

namespace ValueQ

/-! ## The two products of one column group, read at an entry -/

theorem lhs_logit_0 (i : S512x512.Idx) (q : dot_S512x32_S32x512_S512x512_1_0_0_1_n_n.contr.Idx) :
    (dot_S512x32_S32x512_S512x512_1_0_0_1_n_n.lhsIdx i q 0).val = (i 0).val := by
  unfold DotDims.lhsIdx
  rw [dif_neg (show ¬(0 : Fin S512x32.rank) ∈ dot_S512x32_S32x512_S512x512_1_0_0_1_n_n.lhsBatch by decide), dif_pos (show (0 : Fin S512x32.rank) ∈ dot_S512x32_S32x512_S512x512_1_0_0_1_n_n.lhsNonContracting by decide)]
  rfl
theorem lhs_logit_1 (i : S512x512.Idx) (q : dot_S512x32_S32x512_S512x512_1_0_0_1_n_n.contr.Idx) :
    (dot_S512x32_S32x512_S512x512_1_0_0_1_n_n.lhsIdx i q 1).val = (q ⟨0, by decide⟩).val :=
  dot_S512x32_S32x512_S512x512_1_0_0_1_n_n.lhsIdx_val_of_single rfl i q
theorem rhs_logit_0 (i : S512x512.Idx) (q : dot_S512x32_S32x512_S512x512_1_0_0_1_n_n.contr.Idx) :
    (dot_S512x32_S32x512_S512x512_1_0_0_1_n_n.rhsIdx i q 0).val = (q ⟨0, by decide⟩).val :=
  dot_S512x32_S32x512_S512x512_1_0_0_1_n_n.rhsIdx_val_of_single rfl i q
theorem rhs_logit_1 (i : S512x512.Idx) (q : dot_S512x32_S32x512_S512x512_1_0_0_1_n_n.contr.Idx) :
    (dot_S512x32_S32x512_S512x512_1_0_0_1_n_n.rhsIdx i q 1).val = (i 1).val := by
  unfold DotDims.rhsIdx
  rw [dif_neg (show ¬(1 : Fin S32x512.rank) ∈ dot_S512x32_S32x512_S512x512_1_0_0_1_n_n.rhsBatch by decide), dif_pos (show (1 : Fin S32x512.rank) ∈ dot_S512x32_S32x512_S512x512_1_0_0_1_n_n.rhsNonContracting by decide)]
  rfl

/-- Entry (a, c) of the product of a 512 × 32 matrix with a 32 × 512 matrix, summed from zero. -/
theorem logitDot_apply (l : FVec Ideal S512x32 .bf16) (r : FVec Ideal S32x512 .bf16) (a : Fin 512) (c : Fin 512) :
    matmul (F := Ideal) dot_S512x32_S32x512_S512x512_1_0_0_1_n_n none l r (constant (F := Ideal) S512x512 .f32 0x00000000#32) (ix2 a c)
      = ∑ k : Fin 32, l (ix2 a k) * r (ix2 k c) := by
  simp only [matmul]
  rw [Ideal.matmul_constant_zero_apply, ← Equiv.sum_comp (ValueIdx.contrEquiv1 dot_S512x32_S32x512_S512x512_1_0_0_1_n_n 32 rfl rfl).symm]
  refine Finset.sum_congr rfl fun k _ => ?_
  have hk := ValueIdx.contrEquiv1_symm_val dot_S512x32_S32x512_S512x512_1_0_0_1_n_n 32 rfl rfl k
  have el : dot_S512x32_S32x512_S512x512_1_0_0_1_n_n.lhsIdx (ix2 a c) ((ValueIdx.contrEquiv1 dot_S512x32_S32x512_S512x512_1_0_0_1_n_n 32 rfl rfl).symm k) = ix2 a k := funext fun ax => Fin.ext (by
    match ax with
    | ⟨0, _⟩ => exact lhs_logit_0 _ _
    | ⟨1, _⟩ => exact (lhs_logit_1 _ _).trans hk)
  have er : dot_S512x32_S32x512_S512x512_1_0_0_1_n_n.rhsIdx (ix2 a c) ((ValueIdx.contrEquiv1 dot_S512x32_S32x512_S512x512_1_0_0_1_n_n 32 rfl rfl).symm k) = ix2 k c := funext fun ax => Fin.ext (by
    match ax with
    | ⟨0, _⟩ => exact (rhs_logit_0 _ _).trans hk
    | ⟨1, _⟩ => exact rhs_logit_1 _ _)
  rw [el, er]

theorem lhs_mix_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem lhs_mix_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
theorem rhs_mix_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
theorem rhs_mix_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- Entry (a, c) of the product of a 512 × 512 matrix with a 512 × 64 matrix, summed from zero. -/
theorem mixDot_apply (l : FVec Ideal S512x512 .bf16) (r : FVec Ideal S512x64 .bf16) (a : Fin 512) (c : Fin 64) :
    matmul (F := Ideal) dot_S512x512_S512x64_S512x64_1_0_0_1_n_n none l r (constant (F := Ideal) S512x64 .f32 0x00000000#32) (ix2 a c)
      = ∑ k : Fin 512, l (ix2 a k) * r (ix2 k c) := by
  simp only [matmul]
  rw [Ideal.matmul_constant_zero_apply, ← Equiv.sum_comp (ValueIdx.contrEquiv1 dot_S512x512_S512x64_S512x64_1_0_0_1_n_n 512 rfl rfl).symm]
  refine Finset.sum_congr rfl fun k _ => ?_
  have hk := ValueIdx.contrEquiv1_symm_val dot_S512x512_S512x64_S512x64_1_0_0_1_n_n 512 rfl rfl k
  have el : dot_S512x512_S512x64_S512x64_1_0_0_1_n_n.lhsIdx (ix2 a c) ((ValueIdx.contrEquiv1 dot_S512x512_S512x64_S512x64_1_0_0_1_n_n 512 rfl rfl).symm k) = ix2 a k := funext fun ax => Fin.ext (by
    match ax with
    | ⟨0, _⟩ => exact lhs_mix_0 _ _
    | ⟨1, _⟩ => exact (lhs_mix_1 _ _).trans hk)
  have er : dot_S512x512_S512x64_S512x64_1_0_0_1_n_n.rhsIdx (ix2 a c) ((ValueIdx.contrEquiv1 dot_S512x512_S512x64_S512x64_1_0_0_1_n_n 512 rfl rfl).symm k) = ix2 k c := funext fun ax => Fin.ext (by
    match ax with
    | ⟨0, _⟩ => exact (rhs_mix_0 _ _).trans hk
    | ⟨1, _⟩ => exact rhs_mix_1 _ _)
  rw [el, er]

/-! ## One column group at an entry -/

/-- The exponential of a vector, read at an index. -/
theorem vexp_apply {s : Shape} {φ : FTy} (x : FVec Ideal s φ) (i : s.Idx) : exp x i = Ideal.exp (x i) := rfl

end ValueQ

open ValueQ

/-- One column group's arithmetic at an index. -/
theorem quantBlock_apply (v : Vec Ideal S1x512x32 .bf16) (mm : Vec Ideal S32x512 .bf16) (b : Vec Ideal S1x512 .f32) (ca : Vec Ideal S512x64 .bf16)
    (a : Fin 512) (d : Fin 32) :
    quantBlock (F := Ideal) v mm b ca (ValueIdx.ix2 a d)
      = (∑ k : Fin 512, Ideal.exp ((∑ e : Fin 32, v (ValueIdx.ix3 0 a e) * mm (ValueIdx.ix2 e k)) + b (ValueIdx.ix2 0 k)) * ca (ValueIdx.ix2 k ⟨d.val, by omega⟩))
        * Ideal.div Cert.Spec.one (∑ k : Fin 512, Ideal.exp ((∑ e : Fin 32, v (ValueIdx.ix3 0 a e) * mm (ValueIdx.ix2 e k)) + b (ValueIdx.ix2 0 k)) * ca (ValueIdx.ix2 k ⟨32 + d.val, by omega⟩)) := by
  have hexp : ∀ k : Fin 512,
      (truncf .bf16 (exp (addf
        (matmul (F := Ideal) (φ₁ := .bf16) (φ₂ := .bf16) dot_S512x32_S32x512_S512x512_1_0_0_1_n_n none (shapeCast S512x32 v shapeCasts_S1x512x32_S512x32)
          (shapeCast S32x512 mm shapeCasts_S32x512_S32x512) (constant (F := Ideal) S512x512 .f32 0x00000000#32))
        (broadcastTo S512x512 (shapeCast S1x512 b shapeCasts_S1x512_S1x512) broadcasts_S1x512_S512x512))) bitsLt_bf16_f32
          : FVec Ideal S512x512 .bf16) (ix2 a k)
        = Ideal.exp ((∑ e : Fin 32, v (ix3 0 a e) * mm (ix2 e k)) + b (ix2 0 k)) := by
    intro k
    rw [truncf_apply, vexp_apply, addf_apply, logitDot_apply, broadcastTo_1b_ab_apply, shapeCast_self b, shapeCast_self mm]
    refine congrArg (fun s => Ideal.exp (s + b (ix2 0 k))) (Finset.sum_congr rfl fun e _ => ?_)
    rw [shapeCast_1ab_ab_apply]
  unfold quantBlock
  rw [mulf_apply, divf_apply, broadcast_apply,
    slice2_axis1_apply 0 _ slices_S512x64_o0_0_S512x32 a d ⟨d.val, by omega⟩ (Nat.zero_add _).symm,
    slice2_axis1_apply 32 _ slices_S512x64_o0_32_S512x32 a d ⟨32 + d.val, by omega⟩ rfl,
    mixDot_apply, mixDot_apply, shapeCast_self ca]
  refine congrArg₂ (fun s t => s * Ideal.div Cert.Spec.one t) (Finset.sum_congr rfl fun k _ => ?_) (Finset.sum_congr rfl fun k _ => ?_)
  · rw [hexp k]
  · rw [hexp k]

namespace ValueQ

/-! ## The 32 stores as one function of the block index -/

/-- Where the store of column group `j` puts its entry `(a, d)`: row `a`, column `32 j + d`. -/
theorem slab_emb (j : Fin 32) (a : Fin 512) (d : Fin 32) :
    (slab j).emb (ix2 a d) = ix2 a ⟨32 * j.val + d.val, by have := j.isLt; have := d.isLt; omega⟩ := by
  funext ax
  refine Fin.ext ?_
  match ax with
  | ⟨0, _⟩ => show 0 + 1 * a.val = a.val; omega
  | ⟨1, _⟩ => show 32 * j.val + 1 * d.val = 32 * j.val + d.val; omega

/-- Slab `j` of the code block, read at `(0, a, e)`, is the code block at `(j, a, e)`. -/
theorem ld_row (x0 : Vec Ideal S32x512x32 .bf16) (j : Fin 32) (a : Fin 512) (e : Fin 32) :
    View.ld x0 (row j) (ix3 0 a e) = x0 (ix3 j a e) := by
  show x0 ((row j).idx (ix3 0 a e)) = x0 (ix3 j a e)
  refine congrArg x0 (funext fun ax => Fin.ext ?_)
  match ax with
  | ⟨0, _⟩ => show j.val + 1 * 0 = j.val; omega
  | ⟨1, _⟩ => show 0 + 1 * a.val = a.val; omega
  | ⟨2, _⟩ => show 0 + 1 * e.val = e.val; omega

theorem zeros2 : (![0, 0] : Fin 2 → Nat) = fun _ => 0 := funext fun a => by
  match a with
  | ⟨0, _⟩ => rfl
  | ⟨1, _⟩ => rfl

/-- The target entry at column `32 j + d`: column group `j`, coordinate `d`. -/
theorem Wgen_at (A0 : Vec Ideal S32x512x32 .bf16) (A1 : Vec Ideal S32x512 .bf16) (A2 : Vec Ideal S1x512 .f32) (A3 : Vec Ideal S512x64 .bf16)
    (r : Fin 512) (j d : Fin 32) (col : Fin 1024) (hcol : col.val = 32 * j.val + d.val) :
    Cert.Spec.Wgen (R := 512) A0 A1 A2 A3 r col
      = (∑ k : Fin 512, Ideal.exp ((∑ e : Fin 32, A0 (ix3 j r e) * A1 (ix2 e k)) + A2 (ix2 0 k)) * A3 (ix2 k ⟨d.val, by omega⟩))
        * Ideal.div Cert.Spec.one (∑ k : Fin 512, Ideal.exp ((∑ e : Fin 32, A0 (ix3 j r e) * A1 (ix2 e k)) + A2 (ix2 0 k)) * A3 (ix2 k ⟨32 + d.val, by omega⟩)) := by
  have hj := j.isLt
  have hd := d.isLt
  have e1 : (⟨col.val / 32, by have := col.isLt; omega⟩ : Fin 32) = j := Fin.ext (by show col.val / 32 = j.val; omega)
  have e2 : (⟨col.val % 32, by have := col.isLt; omega⟩ : Fin 64) = ⟨d.val, by omega⟩ := Fin.ext (by show col.val % 32 = d.val; omega)
  have e3 : (⟨32 + col.val % 32, by have := col.isLt; omega⟩ : Fin 64) = ⟨32 + d.val, by omega⟩ :=
    Fin.ext (by show 32 + col.val % 32 = 32 + d.val; omega)
  unfold Cert.Spec.Wgen Cert.Spec.logitG
  rw [e1, e2, e3]

/-- The block the 32 stores build, as a function of its index. -/
def blockG (x0 : Vec Ideal S32x512x32 .bf16) (x1 : Vec Ideal S32x512 .bf16) (x2 : Vec Ideal S1x512 .f32) (x3 : Vec Ideal S512x64 .bf16) :
    S512x1024.Idx → Elt Ideal .f32 :=
  fun y => Cert.Spec.Wgen (R := 512) x0 x1 x2 x3 (y 0) (y 1)

/-- The store of column group `j` is the block of `blockG` its rectangle names. -/
theorem qpiece_at (x0 : Vec Ideal S32x512x32 .bf16) (x1 : Vec Ideal S32x512 .bf16) (x2 : Vec Ideal S1x512 .f32) (x3 : Vec Ideal S512x64 .bf16)
    (j : Fin 32) (x : (qpiece (F := Ideal) x0 x1 x2 x3 j).1.shape.Idx) :
    (qpiece (F := Ideal) x0 x1 x2 x3 j).2 x = blockG x0 x1 x2 x3 ((qpiece (F := Ideal) x0 x1 x2 x3 j).1.emb x) := by
  obtain ⟨a, d, rfl⟩ : ∃ (a : Fin 512) (d : Fin 32), x = ix2 a d := ⟨x 0, x 1, eq_ix2 x⟩
  show quantBlock (F := Ideal) (View.ld x0 (row j)) (View.ld x1 r1) (View.ld x2 r2) (View.ld x3 r3) (ix2 a d)
    = blockG x0 x1 x2 x3 ((slab j).emb (ix2 a d))
  rw [slab_emb]
  refine (quantBlock_apply _ _ _ _ a d).trans ?_
  rw [View.ld_unit_zero zeros2, View.ld_unit_zero zeros2, View.ld_unit_zero zeros2]
  show _ = Cert.Spec.Wgen (R := 512) x0 x1 x2 x3 a ⟨32 * j.val + d.val, _⟩
  rw [Wgen_at x0 x1 x2 x3 a j d _ rfl]
  refine congrArg₂ (fun s t => s * Ideal.div Cert.Spec.one t) (Finset.sum_congr rfl fun k _ => ?_) (Finset.sum_congr rfl fun k _ => ?_)
  · refine congrArg (fun s => Ideal.exp (s + x2 (ix2 0 k)) * x3 (ix2 k ⟨d.val, by omega⟩)) (Finset.sum_congr rfl fun e _ => ?_)
    rw [ld_row]
  · refine congrArg (fun s => Ideal.exp (s + x2 (ix2 0 k)) * x3 (ix2 k ⟨32 + d.val, by omega⟩)) (Finset.sum_congr rfl fun e _ => ?_)
    rw [ld_row]

end ValueQ

/-- The output block after the body, read at an index: entry (a, col) is Wgen of the four input blocks. -/
theorem out0_4_apply (x0 : Vec Ideal S32x512x32 .bf16) (x1 : Vec Ideal S32x512 .bf16) (x2 : Vec Ideal S1x512 .f32) (x3 : Vec Ideal S512x64 .bf16)
    (a : Fin 512) (col : Fin 1024) :
    out0_4 (F := Ideal) x0 x1 x2 x3 (ValueIdx.ix2 a col) = Cert.Spec.Wgen (R := 512) x0 x1 x2 x3 a col := by
  unfold out0_4
  refine View.canon_apply_of_pieces (blockG x0 x1 x2 x3) _ (fun p hp => ?_) (ix2 a col) ?_
  · have hj : ∃ j : Fin 32, p = qpiece (F := Ideal) x0 x1 x2 x3 j := by
      iterate 32 (rcases List.mem_cons.mp hp with rfl | hp; exact ⟨_, rfl⟩)
      exact absurd hp List.not_mem_nil
    obtain ⟨j, rfl⟩ := hj
    exact qpiece_at x0 x1 x2 x3 j
  · exact View.cover_of_tiledL (s := S512x1024) _ S512x32.size (by sl_kernel_rfl) (ix2 a col)

end Cert.KernelIdeal.Hand

end
-- ==== Proof.KI.ArrQ.lean ====
/-
  The weight matrix after the quantizer region, as one function of the four arrays the region reads.

  The region has four grid points. Point `t` reads the code block of rows `512 t … 512 t + 511` (axis 1 of the
  regrouped code array, whose axes 0 and 2 are taken whole), the doubled transposed codebook, the row of negated
  squared norms and the widened codebook whole, and writes rows `512 t … 512 t + 511` of the weight matrix, all 1024
  columns. Row `a` of what point `t` writes is the soft assignment `Wgen` of the four blocks at row `a`; `Wgen` at a
  row reads of the code array only that row, and the other three arrays do not move with the point, so it is `Wgen` of
  the four whole arrays at row `512 t + a`. The four row blocks tile the matrix (row `r` lies in block `r / 512`), so the
  matrix ends holding `Wgen` of the whole arrays at every entry.
-/
import proofs.«130315_g53111565582714_cont_9to1c4b_343_14_alg».proof.Proof.KI.Dats
import proofs.«130315_g53111565582714_cont_9to1c4b_343_14_alg».proof.Proof.Spec
import proofs.«130315_g53111565582714_cont_9to1c4b_343_14_alg».proof.Proof.KI.ValueQ
import Idealize.ShloMosaic.Lib.Pipeline.Value
import Idealize.ShloMosaic.Lib.ValueIdx
import Idealize.ShloMosaic.Lib.Pipeline.FrameBody

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

/-! ## Where each window's block sits -/

/-- The block indices at the four grid points: the output's block is row block `t`, all columns; the code array's block
    is row block `t` of its middle axis, its outer axes whole; the three codebook-derived arrays are one block each. -/
theorem blockIndex0 : ∀ t : Fin cfg0.N, t.val < 4
    ∧ win0_4.index t (0 : Fin 2) = t.val ∧ win0_4.index t (1 : Fin 2) = 0
    ∧ win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-! ## The soft assignment reads one row of the codes -/

/-- `Wgen` at row `a` of a 512-row code array is `Wgen` at row `r` of a 2048-row one when row `a` of the first is row
    `r` of the second and the other three arrays agree. -/
theorem Wgen_of_rows {B0 : S32x512x32.Idx → EReal} {A0 : S32x2048x32.Idx → EReal}
    {B1 A1 : S32x512.Idx → EReal} {B2 A2 : S1x512.Idx → EReal} {B3 A3 : S512x64.Idx → EReal}
    (a : Fin 512) (r : Fin 2048) (col : Fin 1024)
    (h0 : ∀ (j : Fin 32) (e : Fin 32), B0 (ix3 j a e) = A0 (ix3 j r e))
    (h1 : ∀ (e : Fin 32) (k : Fin 512), B1 (ix2 e k) = A1 (ix2 e k))
    (h2 : ∀ k : Fin 512, B2 (ix2 (0 : Fin 1) k) = A2 (ix2 (0 : Fin 1) k))
    (h3 : ∀ (k : Fin 512) (d : Fin 64), B3 (ix2 k d) = A3 (ix2 k d)) :
    Cert.Spec.Wgen (R := 512) B0 B1 B2 B3 a col = Cert.Spec.Wgen (R := 2048) A0 A1 A2 A3 r col := by
  unfold Cert.Spec.Wgen Cert.Spec.logitG
  simp only [h0, h1, h2, h3]

/-! ## Each input block, read off its array -/

/-- Entry `(j, a, e)` of the code block at point `t` is entry `(j, 512 t + a, e)` of the code array. -/
theorem codes_block (c : Dev nD) (t : Fin cfg0.N) (j : Fin 32) (a : Fin 512) (e : Fin 32) (r : Fin 2048)
    (hr : r.val = 512 * t.val + a.val) :
    (iblk0 V c 0 t : S32x512x32.Idx → EReal) (ix3 j a e) = (V c main_v2 : S32x2048x32.Idx → EReal) (ix3 j r e) := by
  obtain ⟨-, -, -, e0, e1, e2, -⟩ := blockIndex0 t
  show (V c main_v2 : S32x2048x32.Idx → EReal) (((cfg0.win 0).blk t).view.emb (ix3 j a e)) = V c main_v2 (ix3 j r e)
  refine congrArg _ ?_
  funext ax; apply Fin.ext
  match ax with
  | ⟨0, _⟩ => show win0_0.index t (0 : Fin 3) * 32 + 1 * j.val = j.val; omega
  | ⟨1, _⟩ => show win0_0.index t (1 : Fin 3) * 512 + 1 * a.val = r.val; omega
  | ⟨2, _⟩ => show win0_0.index t (2 : Fin 3) * 32 + 1 * e.val = e.val; omega

/-- The doubled transposed codebook's block is the array. -/
theorem proj_block (c : Dev nD) (t : Fin cfg0.N) (e : Fin 32) (k : Fin 512) :
    (iblk0 V c 1 t : S32x512.Idx → EReal) (ix2 e k) = (V c main_v6 : S32x512.Idx → EReal) (ix2 e k) := by
  obtain ⟨-, -, -, -, -, -, e0, e1, -⟩ := blockIndex0 t
  show (V c main_v6 : S32x512.Idx → EReal) (((cfg0.win 1).blk t).view.emb (ix2 e k)) = V c main_v6 (ix2 e k)
  refine congrArg _ ?_
  funext ax; apply Fin.ext
  match ax with
  | ⟨0, _⟩ => show win0_1.index t (0 : Fin 2) * 32 + 1 * e.val = e.val; omega
  | ⟨1, _⟩ => show win0_1.index t (1 : Fin 2) * 512 + 1 * k.val = k.val; omega

/-- The row of negated squared norms' block is the array. -/
theorem norms_block (c : Dev nD) (t : Fin cfg0.N) (z : Fin 1) (k : Fin 512) :
    (iblk0 V c 2 t : S1x512.Idx → EReal) (ix2 z k) = (V c main_v10 : S1x512.Idx → EReal) (ix2 z k) := by
  obtain ⟨-, -, -, -, -, -, -, -, e0, e1, -⟩ := blockIndex0 t
  show (V c main_v10 : S1x512.Idx → EReal) (((cfg0.win 2).blk t).view.emb (ix2 z k)) = V c main_v10 (ix2 z k)
  refine congrArg _ ?_
  funext ax; apply Fin.ext
  match ax with
  | ⟨0, _⟩ => show win0_2.index t (0 : Fin 2) * 1 + 1 * z.val = z.val; omega
  | ⟨1, _⟩ => show win0_2.index t (1 : Fin 2) * 512 + 1 * k.val = k.val; omega

/-- The widened codebook's block is the array. -/
theorem book_block (c : Dev nD) (t : Fin cfg0.N) (k : Fin 512) (d : Fin 64) :
    (iblk0 V c 3 t : S512x64.Idx → EReal) (ix2 k d) = (V c main_v13 : S512x64.Idx → EReal) (ix2 k d) := by
  obtain ⟨-, -, -, -, -, -, -, -, -, -, e0, e1⟩ := blockIndex0 t
  show (V c main_v13 : S512x64.Idx → EReal) (((cfg0.win 3).blk t).view.emb (ix2 k d)) = V c main_v13 (ix2 k d)
  refine congrArg _ ?_
  funext ax; apply Fin.ext
  match ax with
  | ⟨0, _⟩ => show win0_3.index t (0 : Fin 2) * 512 + 1 * k.val = k.val; omega
  | ⟨1, _⟩ => show win0_3.index t (1 : Fin 2) * 64 + 1 * d.val = d.val; omega

/-! ## What each point writes back -/

/-- The weight matrix as the soft assignment of the four whole arrays, entry by entry. -/
abbrev Wfull (c : Dev nD) : S2048x1024.Idx → EReal :=
  fun i => Cert.Spec.Wgen (R := 2048) (V c main_v2) (V c main_v6) (V c main_v10) (V c main_v13) (i 0) (i 1)

/-- Point `t` writes back rows `512 t … 512 t + 511` of `Wfull`. -/
theorem rowBlock_written (c : Dev nD) (t : Fin cfg0.N) :
    (dat0 (F := Ideal) V c).flushed 4 t = ((cfg0.win 4).blk t).view.read (Elt Ideal) (Wfull V c) := by
  show (cfg0.win 4).cut (grid0.coords t) ((dat0 V c).after 4 t) = _
  rw [after0_4]
  refine funext fun (y : S512x1024.Idx) => ?_
  obtain ⟨a, col, rfl⟩ : ∃ (a : Fin 512) (col : Fin 1024), y = ix2 a col := ⟨y 0, y 1, eq_ix2 y⟩
  obtain ⟨ht, i0, i1, -⟩ := blockIndex0 t
  have ha : a.val < 512 := a.isLt
  show out0_4 (F := Ideal) (iblk0 V c 0 t) (iblk0 V c 1 t) (iblk0 V c 2 t) (iblk0 V c 3 t) (ix2 a col)
    = Wfull V c (((cfg0.win 4).blk t).view.emb (ix2 a col))
  refine (out0_4_apply _ _ _ _ a col).trans ?_
  have hemb : (((cfg0.win 4).blk t).view.emb (ix2 a col) : S2048x1024.Idx)
      = ix2 (⟨512 * t.val + a.val, by omega⟩ : Fin 2048) col := by
    funext ax; apply Fin.ext
    match ax with
    | ⟨0, _⟩ => show win0_4.index t (0 : Fin 2) * 512 + 1 * a.val = 512 * t.val + a.val; omega
    | ⟨1, _⟩ => show win0_4.index t (1 : Fin 2) * 1024 + 1 * col.val = col.val; omega
  refine Eq.trans ?_ (congrArg (Wfull V c) hemb).symm
  exact Wgen_of_rows a ⟨512 * t.val + a.val, by omega⟩ col (fun j e => codes_block V c t j a e _ rfl)
    (fun e k => proj_block V c t e k) (fun k => norms_block V c t 0 k) (fun k d => book_block V c t k d)

/-! ## The four row blocks tile the matrix -/

/-- An entry is in point `t`'s block iff each coordinate is in the block's range on its axis. -/
theorem mem_rowBlock (t : Fin cfg0.N) (i : S2048x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v14).slice (win0_4.rect t)).set ↔ _
  rw [View.set_slice_whole, Rect.mem_set_unit]
  exact Iff.rfl

/-- Row `r` lies in the block of point `r / 512`, which writes back. -/
theorem rowBlocks_cover (i : S2048x1024.Idx) :
    ∃ t : Fin cfg0.N, (cfg0.win 4).flush t = true ∧ i ∈ ((cfg0.win 4).blk t).view.set := by
  have hi0 : (i 0).val < 2048 := (i 0).isLt
  have hi1 : (i 1).val < 1024 := (i 1).isLt
  obtain ⟨t, htv⟩ : ∃ t : Fin cfg0.N, t.val = (i 0).val / 512 :=
    ⟨⟨(i 0).val / 512, show (i 0).val / 512 < 4 by omega⟩, rfl⟩
  obtain ⟨-, e0, e1, -⟩ := blockIndex0 t
  refine ⟨t, flush0_4 t, ?_⟩
  rw [mem_rowBlock]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1024 ≤ (i 1).val ∧ (i 1).val < win0_4.index t (1 : Fin 2) * 1024 + 1024
    omega

/-! ## The matrix after the region -/

/-- After the quantizer region the weight matrix holds, at entry `(r, col)`, the soft assignment of the four arrays the
    region read, at that entry. -/
theorem W_final (c : Dev nD) :
    ((dat0 (F := Ideal) V c).arrAt 4 cfg0.N : S2048x1024.Idx → EReal)
      = fun i => Cert.Spec.Wgen (R := 2048) (V c main_v2) (V c main_v6) (V c main_v10) (V c main_v13) (i 0) (i 1) :=
  (dat0 (F := Ideal) V c).arrAt_eq_of_cover 4 (Wfull V c) (fun t _ => rowBlock_written V c t) rowBlocks_cover

end Cert.KernelIdeal.Hand

end
-- ==== Proof.KI.ValueM.lean ====
/-
  The perceptron pipeline read as mathematics, at the ideal values.

  The body stores one whole block: with `x0` a block of 1024 rows of activations and `x1`, `x2` the two halves of
  the stacked weight matrix, entry `(a, b)` of the stored block is
  `∑ k, max (∑ j, x0 (a, j) · x1 (j, k)) 0 · x2 (k, b)`: every format change is the identity on the extended reals,
  each product accumulates into the zero block, and the rectifier is the maximum with the zero word.

  The pipeline has two grid points. Point `t` reads rows `1024 t … 1024 t + 1023` of the activations, the upper
  half (rows `0 … 1023`) and the lower half (rows `1024 … 2047`) of the weight matrix, and writes its block back as
  rows `1024 t …` of the result. Row `r` of the result is therefore written by point `r / 1024`, the two blocks
  cover the array, and the array ends holding the two-layer perceptron of the specification index by index.
-/
import proofs.«130315_g53111565582714_cont_9to1c4b_343_14_alg».proof.Proof.KI.Dats
import proofs.«130315_g53111565582714_cont_9to1c4b_343_14_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## One product of two 1024 × 1024 blocks, read at an entry

The dimension numbers contract the left operand's axis 1 against the right operand's axis 0 and keep the left
operand's axis 0 and the right operand's axis 1: at output entry `i` and contraction coordinate `q` the left factor
sits at `(i 0, q)` and the right factor at `(q, i 1)`. -/

theorem lhs_mm_0 (i : S1024x1024.Idx) (q : Cert.KernelIdeal.dot_S1024x1024_S1024x1024_S1024x1024_1_0_0_1_n_n.contr.Idx) :
    (Cert.KernelIdeal.dot_S1024x1024_S1024x1024_S1024x1024_1_0_0_1_n_n.lhsIdx i q 0).val = (i 0).val := by
  unfold DotDims.lhsIdx
  rw [dif_neg (show ¬(0 : Fin S1024x1024.rank) ∈ Cert.KernelIdeal.dot_S1024x1024_S1024x1024_S1024x1024_1_0_0_1_n_n.lhsBatch by decide), dif_pos (show (0 : Fin S1024x1024.rank) ∈ Cert.KernelIdeal.dot_S1024x1024_S1024x1024_S1024x1024_1_0_0_1_n_n.lhsNonContracting by decide)]
  rfl
theorem lhs_mm_1 (i : S1024x1024.Idx) (q : Cert.KernelIdeal.dot_S1024x1024_S1024x1024_S1024x1024_1_0_0_1_n_n.contr.Idx) :
    (Cert.KernelIdeal.dot_S1024x1024_S1024x1024_S1024x1024_1_0_0_1_n_n.lhsIdx i q 1).val = (q ⟨0, by decide⟩).val :=
  Cert.KernelIdeal.dot_S1024x1024_S1024x1024_S1024x1024_1_0_0_1_n_n.lhsIdx_val_of_single rfl i q
theorem rhs_mm_0 (i : S1024x1024.Idx) (q : Cert.KernelIdeal.dot_S1024x1024_S1024x1024_S1024x1024_1_0_0_1_n_n.contr.Idx) :
    (Cert.KernelIdeal.dot_S1024x1024_S1024x1024_S1024x1024_1_0_0_1_n_n.rhsIdx i q 0).val = (q ⟨0, by decide⟩).val :=
  Cert.KernelIdeal.dot_S1024x1024_S1024x1024_S1024x1024_1_0_0_1_n_n.rhsIdx_val_of_single rfl i q
theorem rhs_mm_1 (i : S1024x1024.Idx) (q : Cert.KernelIdeal.dot_S1024x1024_S1024x1024_S1024x1024_1_0_0_1_n_n.contr.Idx) :
    (Cert.KernelIdeal.dot_S1024x1024_S1024x1024_S1024x1024_1_0_0_1_n_n.rhsIdx i q 1).val = (i 1).val := by
  unfold DotDims.rhsIdx
  rw [dif_neg (show ¬(1 : Fin S1024x1024.rank) ∈ Cert.KernelIdeal.dot_S1024x1024_S1024x1024_S1024x1024_1_0_0_1_n_n.rhsBatch by decide), dif_pos (show (1 : Fin S1024x1024.rank) ∈ Cert.KernelIdeal.dot_S1024x1024_S1024x1024_S1024x1024_1_0_0_1_n_n.rhsNonContracting by decide)]
  rfl

/-- The product of two blocks accumulated into the zero block, at entry `(a, b)`: the sum over `k` of the left
    operand at `(a, k)` times the right operand at `(k, b)`. -/
theorem mm_zero_apply {φ₁ φ₂ : FTy} (l : FVec Ideal S1024x1024 φ₁) (r : FVec Ideal S1024x1024 φ₂) (a b : Fin 1024) :
    matmul Cert.KernelIdeal.dot_S1024x1024_S1024x1024_S1024x1024_1_0_0_1_n_n none l r (constant S1024x1024 .f32 0x00000000#32) (ix2 a b)
      = ∑ k : Fin 1024, l (ix2 a k) * r (ix2 k b) := by
  refine (Ideal.matmul_constant_zero_apply Cert.KernelIdeal.dot_S1024x1024_S1024x1024_S1024x1024_1_0_0_1_n_n none l r (ix2 a b)).trans ?_
  rw [← Equiv.sum_comp (ValueIdx.contrEquiv1 Cert.KernelIdeal.dot_S1024x1024_S1024x1024_S1024x1024_1_0_0_1_n_n 1024 rfl rfl).symm]
  refine Finset.sum_congr rfl fun k _ => ?_
  have hk := ValueIdx.contrEquiv1_symm_val Cert.KernelIdeal.dot_S1024x1024_S1024x1024_S1024x1024_1_0_0_1_n_n 1024 rfl rfl k
  have el : Cert.KernelIdeal.dot_S1024x1024_S1024x1024_S1024x1024_1_0_0_1_n_n.lhsIdx (ix2 a b) ((ValueIdx.contrEquiv1 Cert.KernelIdeal.dot_S1024x1024_S1024x1024_S1024x1024_1_0_0_1_n_n 1024 rfl rfl).symm k) = ix2 a k := funext fun d => Fin.ext (by
    match d with
    | ⟨0, _⟩ => exact lhs_mm_0 _ _
    | ⟨1, _⟩ => exact (lhs_mm_1 _ _).trans hk)
  have er : Cert.KernelIdeal.dot_S1024x1024_S1024x1024_S1024x1024_1_0_0_1_n_n.rhsIdx (ix2 a b) ((ValueIdx.contrEquiv1 Cert.KernelIdeal.dot_S1024x1024_S1024x1024_S1024x1024_1_0_0_1_n_n 1024 rfl rfl).symm k) = ix2 k b := funext fun d => Fin.ext (by
    match d with
    | ⟨0, _⟩ => exact (rhs_mm_0 _ _).trans hk
    | ⟨1, _⟩ => exact rhs_mm_1 _ _)
  rw [el, er]

/-! ## The stored block at an entry -/

theorem zero_offsets : (![0, 0] : Fin 2 → Nat) = fun _ => 0 := funext fun a => by fin_cases a <;> rfl

/-- Entry `(a, b)` of the block the body stores: the rectified first product, multiplied into the second weight half. -/
theorem out1_3_apply (x0 x1 x2 : Vec Ideal S1024x1024 .f32) (a b : Fin 1024) :
    out1_3 (F := Ideal) x0 x1 x2 (ValueIdx.ix2 a b)
      = ∑ k : Fin 1024, max (∑ j : Fin 1024, x0 (ValueIdx.ix2 a j) * x1 (ValueIdx.ix2 j k)) 0 * x2 (ValueIdx.ix2 k b) := by
  unfold out1_3
  rw [View.canon_unit_zero zero_offsets]
  simp only [View.ld_unit_zero (S := S1024x1024) zero_offsets]
  unfold k1_pay1
  simp only [shapeCast_self]
  refine (mm_zero_apply _ _ a b).trans ?_
  refine Finset.sum_congr rfl fun k _ => ?_
  show max (matmul Cert.KernelIdeal.dot_S1024x1024_S1024x1024_S1024x1024_1_0_0_1_n_n none _ _ (constant S1024x1024 .f32 0x00000000#32) (ix2 a k)) (Ideal.ofBits .f32 0x00000000#32) * x2 (ix2 k b) = _
  rw [mm_zero_apply, Ideal.ofBits_zero_f32]
  rfl

/-! ## From the blocks to the array -/

/-- The printed index maps over the two grid points: the activations' and the result's block index is `(t, 0)`,
    the upper weight half's `(0, 0)`, the lower weight half's `(1, 0)`. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 1 ∧ win1_2.index t (1 : Fin 2) = 0
    ∧ win1_3.index t (0 : Fin 2) = t.val ∧ win1_3.index t (1 : Fin 2) = 0 :=
  (by decide +kernel : ∀ t : Fin grid1.N, _)

/-- The perceptron of the specification over an activations array `A` and a stacked weight array `W`, as one
    function of the result's index. -/
abbrev mlpOf (A W : S2048x1024.Idx → EReal) : S2048x1024.Idx → EReal :=
  fun i => Cert.Spec.mlp (Cert.Spec.xOf A) (fun r k => W (ValueIdx.ix2 r k)) (i 0) (i 1)

/-- One stored block against the specification: when `x0` is rows `1024 n …` of `A`, `x1` rows `0 …` of `W` and
    `x2` rows `1024 …` of `W`, entry `(a, b)` of the stored block is the perceptron at `(1024 n + a, b)`. -/
theorem block_eq_mlp (x0 x1 x2 : Vec Ideal S1024x1024 .f32) (A W : S2048x1024.Idx → EReal) (n : Nat) (hn : n < 2)
    (h0 : ∀ a j : Fin 1024, x0 (ix2 a j) = A (ix2 (⟨1024 * n + a.val, by omega⟩ : Fin 2048) j))
    (h1 : ∀ j k : Fin 1024, x1 (ix2 j k) = W (ix2 (⟨j.val, by omega⟩ : Fin 2048) k))
    (h2 : ∀ k b : Fin 1024, x2 (ix2 k b) = W (ix2 (⟨1024 + k.val, by omega⟩ : Fin 2048) b))
    (a b : Fin 1024) (i : S2048x1024.Idx) (hi0 : (i 0).val = 1024 * n + a.val) (hi1 : (i 1).val = b.val) :
    out1_3 (F := Ideal) x0 x1 x2 (ix2 a b) = mlpOf A W i := by
  rw [out1_3_apply]
  have hb : 1024 * n + a.val < 2048 := by have := a.isLt; omega
  obtain ⟨r, s, rfl⟩ : ∃ (r : Fin 2048) (s : Fin 1024), i = ix2 r s := ⟨i 0, i 1, eq_ix2 i⟩
  obtain rfl : r = ⟨1024 * n + a.val, hb⟩ := Fin.ext hi0
  obtain rfl : s = b := Fin.ext hi1
  show _ = ∑ k : Fin 1024, max (∑ j : Fin 1024, A (ix2 _ j) * W (ix2 _ k)) 0 * W (ix2 _ s)
  refine Finset.sum_congr rfl fun k _ => ?_
  rw [h2 k s]
  congr 2
  refine Finset.sum_congr rfl fun j _ => ?_
  rw [h0 a j, h1 j k]

variable (V : (c : Dev nD) → (b : Ref sig .tc) → Buf (Elt Ideal) ((c : Thread nD τ).loc b))

/-- The activations' block at point `t` is rows `1024 t …` of the activations. -/
theorem iblk1_0_apply (c : Dev nD) (t : Fin cfg1.N) (a j : Fin 1024) (i : S2048x1024.Idx)
    (hi0 : (i 0).val = 1024 * t.val + a.val) (hi1 : (i 1).val = j.val) :
    (iblk1 (F := Ideal) V c 0 t : Vec Ideal S1024x1024 .f32) (ix2 a j) = (V c main_arg0 : S2048x1024.Idx → EReal) i := by
  obtain ⟨e0, e1, -⟩ := idx_facts1 t
  show V c main_arg0 (((cfg1.win 0).blk t).view.emb (ix2 a j)) = V c main_arg0 i
  refine congrArg _ (funext fun d => Fin.ext ?_)
  match d with
  | ⟨0, _⟩ => show win1_0.index t (0 : Fin 2) * 1024 + 1 * a.val = (i 0).val; rw [e0, hi0]; omega
  | ⟨1, _⟩ => show win1_0.index t (1 : Fin 2) * 1024 + 1 * j.val = (i 1).val; rw [e1, hi1]; omega

/-- The first weight window's block is rows `0 …` of the weight matrix, at every point. -/
theorem iblk1_1_apply (c : Dev nD) (t : Fin cfg1.N) (j k : Fin 1024) (i : S2048x1024.Idx)
    (hi0 : (i 0).val = j.val) (hi1 : (i 1).val = k.val) :
    (iblk1 (F := Ideal) V c 1 t : Vec Ideal S1024x1024 .f32) (ix2 j k) = (V c main_v14 : S2048x1024.Idx → EReal) i := by
  obtain ⟨-, -, e2, e3, -⟩ := idx_facts1 t
  show V c main_v14 (((cfg1.win 1).blk t).view.emb (ix2 j k)) = V c main_v14 i
  refine congrArg _ (funext fun d => Fin.ext ?_)
  match d with
  | ⟨0, _⟩ => show win1_1.index t (0 : Fin 2) * 1024 + 1 * j.val = (i 0).val; rw [e2, hi0]; omega
  | ⟨1, _⟩ => show win1_1.index t (1 : Fin 2) * 1024 + 1 * k.val = (i 1).val; rw [e3, hi1]; omega

/-- The second weight window's block is rows `1024 …` of the weight matrix, at every point. -/
theorem iblk1_2_apply (c : Dev nD) (t : Fin cfg1.N) (k b : Fin 1024) (i : S2048x1024.Idx)
    (hi0 : (i 0).val = 1024 + k.val) (hi1 : (i 1).val = b.val) :
    (iblk1 (F := Ideal) V c 2 t : Vec Ideal S1024x1024 .f32) (ix2 k b) = (V c main_v14 : S2048x1024.Idx → EReal) i := by
  obtain ⟨-, -, -, -, e4, e5, -⟩ := idx_facts1 t
  show V c main_v14 (((cfg1.win 2).blk t).view.emb (ix2 k b)) = V c main_v14 i
  refine congrArg _ (funext fun d => Fin.ext ?_)
  match d with
  | ⟨0, _⟩ => show win1_2.index t (0 : Fin 2) * 1024 + 1 * k.val = (i 0).val; rw [e4, hi0]; omega
  | ⟨1, _⟩ => show win1_2.index t (1 : Fin 2) * 1024 + 1 * b.val = (i 1).val; rw [e5, hi1]; omega

/-- What point `t` writes back is block `t` of the perceptron of the arrays as the region finds them. -/
theorem flushed1_3_eq (c : Dev nD) (t : Fin cfg1.N) :
    (dat1 (F := Ideal) V c).flushed 3 t
      = ((cfg1.win 3).blk t).view.read (Elt Ideal) (mlpOf (V c main_arg0) (V c main_v14)) := by
  show (cfg1.win 3).cut (grid1.coords t) ((dat1 V c).after 3 t) = _
  rw [after1_3]
  obtain ⟨-, -, -, -, -, -, e6, e7⟩ := idx_facts1 t
  have hN : grid1.N = 2 := N_1
  have ht : t.val < 2 := by have h : t.val < grid1.N := t.isLt; omega
  funext y
  show out1_3 (iblk1 V c 0 t) (iblk1 V c 1 t) (iblk1 V c 2 t) y = mlpOf (V c main_arg0) (V c main_v14) (((cfg1.win 3).blk t).view.emb y)
  obtain ⟨a, b, rfl⟩ : ∃ (a b : Fin 1024), y = ix2 a b := ⟨y 0, y 1, eq_ix2 y⟩
  refine block_eq_mlp _ _ _ _ _ t.val ht (fun a j => iblk1_0_apply V c t a j _ rfl rfl) (fun j k => iblk1_1_apply V c t j k _ rfl rfl)
    (fun k b => iblk1_2_apply V c t k b _ rfl rfl) a b _ ?_ ?_
  · show win1_3.index t (0 : Fin 2) * 1024 + 1 * a.val = 1024 * t.val + a.val; rw [e6]; omega
  · show win1_3.index t (1 : Fin 2) * 1024 + 1 * b.val = b.val; rw [e7]; omega

/-- An index of the result is in point `t`'s block iff each coordinate is in the block's range on its axis. -/
theorem mem_blk1_3 (t : Fin cfg1.N) (i : S2048x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v15).slice (win1_3.rect t)).set ↔ _
  rw [View.set_slice_whole, Rect.mem_set_unit]
  exact Iff.rfl

/-- Row `r` of the result lies in the block of point `r / 1024`: the two blocks cover the array. -/
theorem covered1_3 (i : S2048x1024.Idx) :
    ∃ t : Fin cfg1.N, (cfg1.win 3).flush t = true ∧ i ∈ ((cfg1.win 3).blk t).view.set := by
  have hi0 : (i 0).val < 2048 := (i 0).isLt
  have hi1 : (i 1).val < 1024 := (i 1).isLt
  have hN : grid1.N = 2 := N_1
  obtain ⟨t, ht⟩ : ∃ t : Fin cfg1.N, t.val = (i 0).val / 1024 := ⟨⟨(i 0).val / 1024, by show _ < grid1.N; omega⟩, rfl⟩
  obtain ⟨-, -, -, -, -, -, e6, e7⟩ := idx_facts1 t
  refine ⟨t, flush1_3 t, ?_⟩
  rw [mem_blk1_3]
  intro a
  match a with
  | ⟨0, _⟩ => show win1_3.index t (0 : Fin 2) * 1024 ≤ (i 0).val ∧ (i 0).val < win1_3.index t (0 : Fin 2) * 1024 + 1024; rw [e6, ht]; omega
  | ⟨1, _⟩ => show win1_3.index t (1 : Fin 2) * 1024 ≤ (i 1).val ∧ (i 1).val < win1_3.index t (1 : Fin 2) * 1024 + 1024; rw [e7]; omega

/-- The result array after the run of the perceptron pipeline: the two-layer perceptron of the activations and the
    stacked weight matrix as the region finds them, index by index. -/
theorem out_final (c : Dev nD) :
    ((dat1 (F := Ideal) V c).arrAt 3 cfg1.N : S2048x1024.Idx → EReal)
      = fun i => Cert.Spec.mlp (Cert.Spec.xOf (V c main_arg0)) (fun r k => (V c main_v14 : S2048x1024.Idx → EReal) (ValueIdx.ix2 r k)) (i 0) (i 1) :=
  (dat1 V c).arrAt_eq_of_cover 3 (mlpOf (V c main_arg0) (V c main_v14)) (fun t _ => flushed1_3_eq V c t) covered1_3

end Cert.KernelIdeal.Hand

end
-- ==== Proof.KI.HostVals.lean ====
/-
  What the host prologue leaves in the four operands of the first kernel region, entry by entry.

  Before the first kernel region the program regroups the flat parameter vector and prepares the codebook:
  * the flat vector of 2097152 numbers is read row-major as `[2048, 32, 32]` and its first two axes are swapped:
    entry `(j, r, e)` of the result is entry `(r · 32 + j) · 32 + e` of the flat vector, coordinate `e` of the code
    vector behind columns `32 j …` of weight row `r`;
  * the codebook is transposed and doubled: entry `(e, k)` is `2 · cb k e`;
  * the codebook is squared, summed along each row from zero, laid out as one row and negated: entry `(0, k)` is
    `−Σ_e (cb k e)²`;
  * the codebook is widened by 32 columns of ones: entry `(k, x)` is `cb k x` for `x < 32` and `1` otherwise.
  The narrowing conversions in between are the identity over the extended reals.

  Each array is first written as the term its operations compose (`term_v…`), that term is read at an index over any
  argument arrays (`read_v…`), and the two are joined (`host_v…`). With these four entries the quantizer over the
  staged operands is the specification's weight matrix (`Wgen_host`).
-/
import proofs.«130315_g53111565582714_cont_9to1c4b_343_14_alg».proof.Proof.Gen.KernelIdeal.Regions
import proofs.«130315_g53111565582714_cont_9to1c4b_343_14_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.TcCoe Idealize.SL.Sem Idealize.ShloMosaic.StableHlo Cert.KernelIdeal Cert.KernelIdeal.Gen ValueIdx

variable (m : (ℓ : Loc nD τ sig) → Buf (Elt Ideal) ℓ) (c : Dev nD)

/-! ## The four arrays as terms of the argument arrays -/

theorem term_v2 :
    (Gen.V1 (F := Ideal) m c (Proc.devRef .tc main_v2) : S32x2048x32.Idx → EReal)
      = transpose S32x2048x32 [1, 0, 2]
          (shapeCast S2048x32x32
            (truncf (F := Ideal) .bf16 (m ((c : Thread nD τ).loc main_arg1) : S2097152.Idx → EReal) bitsLt_bf16_f32)
            shapeCasts_S2097152_S2048x32x32)
          transposes_S2048x32x32_S32x2048x32_1_0_2 := by
  dsimp only [Gen.V1, Gen.V0, Gen.hostOps0]
  after_results
  rfl

theorem term_v6 :
    (Gen.V1 (F := Ideal) m c (Proc.devRef .tc main_v6) : S32x512.Idx → EReal)
      = truncf (F := Ideal) .bf16
          (mulf (F := Ideal) (φ := .f32)
            (broadcastInDim S32x512 ![] bcast_S_S32x512 (constant (F := Ideal) S_ .f32 0x40000000#32))
            (transpose S32x512 [1, 0] (m ((c : Thread nD τ).loc main_arg2) : S512x32.Idx → EReal) transposes_S512x32_S32x512_1_0))
          bitsLt_bf16_f32 := by
  dsimp only [Gen.V1, Gen.V0, Gen.hostOps0]
  after_results

theorem term_v10 :
    (Gen.V1 (F := Ideal) m c (Proc.devRef .tc main_v10) : S1x512.Idx → EReal)
      = Host.negf (F := Ideal) (φ := .f32)
          (broadcastInDim S1x512 ![1] bcast_S512_S1x512_1
            (Host.reduceAdd (F := Ideal) (φ := .f32)
              (mulf (F := Ideal) (φ := .f32) (m ((c : Thread nD τ).loc main_arg2) : S512x32.Idx → EReal) (m ((c : Thread nD τ).loc main_arg2) : S512x32.Idx → EReal))
              (constant (F := Ideal) S_ .f32 0x00000000#32) reducesTo_S512x32_S512_d1 h_S_)) := by
  dsimp only [Gen.V1, Gen.V0, Gen.hostOps0]
  after_results

theorem term_v13 :
    (Gen.V1 (F := Ideal) m c (Proc.devRef .tc main_v13) : S512x64.Idx → EReal)
      = truncf (F := Ideal) .bf16
          (concatenate S512x64 1
            [⟨S512x32, (m ((c : Thread nD τ).loc main_arg2) : S512x32.Idx → EReal)⟩,
             ⟨S512x32, broadcastInDim S512x32 ![] bcast_S_S512x32 (constant (F := Ideal) S_ .f32 0x3F800000#32)⟩]
            concatenates_S512x32_S512x32_S512x64_d1 : S512x64.Idx → EReal)
          bitsLt_bf16_f32 := by
  dsimp only [Gen.V1, Gen.V0, Gen.hostOps0]
  after_results

/-! ## The four terms read at an index, over any argument arrays -/

section Read
variable (x1 : S2097152.Idx → EReal) (x2 : S512x32.Idx → EReal)

/-- Entry `(j, r, e)` of the regrouped code vectors: the flat vector is read row-major as `[2048, 32, 32]`, and the first
    two axes are swapped, so it is entry `(r · 32 + j) · 32 + e` of the flat vector. -/
theorem read_v2 (j : Fin 32) (r : Fin 2048) (e : Fin 32) :
    (transpose S32x2048x32 [1, 0, 2]
        (shapeCast S2048x32x32 (truncf (F := Ideal) .bf16 x1 bitsLt_bf16_f32) shapeCasts_S2097152_S2048x32x32)
        transposes_S2048x32x32_S32x2048x32_1_0_2 : S32x2048x32.Idx → EReal) (ix3 j r e)
      = x1 (ix1 ⟨32 * (32 * r.val + j.val) + e.val, by have := j.isLt; have := r.isLt; have := e.isLt; omega⟩) := by
  refine (transpose_apply [1, 0, 2] _ transposes_S2048x32x32_S32x2048x32_1_0_2 (ix3 j r e) (ix3 r j e)
    (fun b => match b with | ⟨0, _⟩ => rfl | ⟨1, _⟩ => rfl | ⟨2, _⟩ => rfl)).trans ?_
  refine (shapeCast_apply _ shapeCasts_S2097152_S2048x32x32 (ix3 r j e)
    (ix1 ⟨32 * (32 * r.val + j.val) + e.val, by have := j.isLt; have := r.isLt; have := e.isLt; omega⟩) ?_).trans rfl
  rewrite [Shape.rowMajor_val_one, Shape.rowMajor_val_three]
  show 32 * (32 * r.val + j.val) + e.val = (r.val * 32 + j.val) * 32 + e.val
  omega

/-- Entry `(e, k)` of the doubled transposed codebook. -/
theorem read_v6 (e : Fin 32) (k : Fin 512) :
    (truncf (F := Ideal) .bf16
        (mulf (F := Ideal) (φ := .f32)
          (broadcastInDim S32x512 ![] bcast_S_S32x512 (constant (F := Ideal) S_ .f32 0x40000000#32))
          (transpose S32x512 [1, 0] x2 transposes_S512x32_S32x512_1_0))
        bitsLt_bf16_f32 : S32x512.Idx → EReal) (ix2 e k) = Cert.Spec.two * x2 (ix2 k e) := by
  show (broadcastInDim S32x512 ![] bcast_S_S32x512 (constant (F := Ideal) S_ .f32 0x40000000#32)) (ix2 e k)
      * (transpose S32x512 [1, 0] x2 transposes_S512x32_S32x512_1_0) (ix2 e k) = _
  rw [transpose_ix2_apply x2 transposes_S512x32_S32x512_1_0 e k]
  rfl

/-- Entry `(0, k)` of the row of negated squared norms: the sum over a row of the squared codebook, from zero, negated. -/
theorem read_v10 (k : Fin 512) :
    (Host.negf (F := Ideal) (φ := .f32)
        (broadcastInDim S1x512 ![1] bcast_S512_S1x512_1
          (Host.reduceAdd (F := Ideal) (φ := .f32) (mulf (F := Ideal) (φ := .f32) x2 x2)
            (constant (F := Ideal) S_ .f32 0x00000000#32) reducesTo_S512x32_S512_d1 h_S_)) : S1x512.Idx → EReal) (ix2 0 k)
      = -(∑ e : Fin 32, x2 (ix2 k e) * x2 (ix2 k e)) := by
  show -((broadcastInDim S1x512 ![1] bcast_S512_S1x512_1
            (Host.reduceAdd (F := Ideal) (φ := .f32) (mulf (F := Ideal) (φ := .f32) x2 x2)
              (constant (F := Ideal) S_ .f32 0x00000000#32) reducesTo_S512x32_S512_d1 h_S_)) (ix2 0 k)) = _
  congr 1
  refine (broadcastInDim_apply _ bcast_S512_S1x512_1 _ (ix2 0 k) (ix1 k) (fun a => match a with
    | ⟨0, _⟩ => by show k.val = if (512 : Nat) = 1 then 0 else k.val; rw [if_neg (by decide)])).trans ?_
  simp only [Host.reduceAdd, Ideal.hostReduceAdd_def]
  rw [Ideal.hostReduceAdd_single reducesTo_S512x32_S512_d1 (by decide)]
  show Ideal.ofBits .f32 0x00000000#32 + _ = _
  rw [Ideal.ofBits_zero_f32, zero_add]
  refine Finset.sum_congr rfl fun e _ => ?_
  show x2 _ * x2 _ = _
  have hi : (Shape.Reduces.lift (by decide : S512x32.Reduces [1] S512) (ix1 k) e) = ix2 k e :=
    funext fun a => Fin.ext (by match a with | ⟨0, _⟩ => rfl | ⟨1, _⟩ => rfl)
  rw [hi]
  rfl

/-- Entry `(k, x)` of the widened codebook: the codebook in columns `0 … 31`, the literal one in columns `32 … 63`. -/
theorem read_v13 (k : Fin 512) (x : Fin 64) :
    (truncf (F := Ideal) .bf16
        (concatenate S512x64 1
          [⟨S512x32, x2⟩,
           ⟨S512x32, broadcastInDim S512x32 ![] bcast_S_S512x32 (constant (F := Ideal) S_ .f32 0x3F800000#32)⟩]
          concatenates_S512x32_S512x32_S512x64_d1 : S512x64.Idx → EReal)
        bitsLt_bf16_f32 : S512x64.Idx → EReal) (ix2 k x)
      = if h : x.val < 32 then x2 (ix2 k ⟨x.val, h⟩) else Cert.Spec.one := by
  show (concatenate S512x64 1
            [⟨S512x32, x2⟩,
             ⟨S512x32, broadcastInDim S512x32 ![] bcast_S_S512x32 (constant (F := Ideal) S_ .f32 0x3F800000#32)⟩]
            concatenates_S512x32_S512x32_S512x64_d1 : S512x64.Idx → EReal) (ix2 k x) = _
  by_cases h : x.val < 32
  · rw [dif_pos h]
    exact concatenate_pair_apply_left 1 x2 _ concatenates_S512x32_S512x32_S512x64_d1 (ix2 k x) rfl (ix2 k ⟨x.val, h⟩)
      (fun b => match b with | ⟨0, _⟩ => rfl | ⟨1, _⟩ => rfl)
  · rw [dif_neg h]
    have hx := x.isLt
    refine (concatenate_pair_apply_right 1 x2 _ concatenates_S512x32_S512x32_S512x64_d1 (ix2 k x) rfl rfl
      (ix2 k ⟨x.val - 32, by omega⟩)
      (fun b hb => match b, hb with | ⟨0, _⟩, _ => rfl | ⟨1, _⟩, hb => absurd rfl hb) ?_).trans rfl
    show x.val - 32 + 32 = x.val
    omega

end Read

/-! ## The staged operands of the first kernel region, entry by entry -/

theorem host_v2 (j : Fin 32) (r : Fin 2048) (e : Fin 32) :
    (Gen.V1 (F := Ideal) m c (Proc.devRef .tc main_v2) : S32x2048x32.Idx → EReal) (ix3 j r e)
      = (m ((c : Thread nD τ).loc main_arg1) : S2097152.Idx → EReal) (ix1 ⟨32 * (32 * r.val + j.val) + e.val, by have := j.isLt; have := r.isLt; have := e.isLt; omega⟩) :=
  (congrFun (term_v2 m c) _).trans (read_v2 _ j r e)

theorem host_v6 (e : Fin 32) (k : Fin 512) :
    (Gen.V1 (F := Ideal) m c (Proc.devRef .tc main_v6) : S32x512.Idx → EReal) (ix2 e k) = Cert.Spec.two * (m ((c : Thread nD τ).loc main_arg2) : S512x32.Idx → EReal) (ix2 k e) :=
  (congrFun (term_v6 m c) _).trans (read_v6 _ e k)

theorem host_v10 (k : Fin 512) :
    (Gen.V1 (F := Ideal) m c (Proc.devRef .tc main_v10) : S1x512.Idx → EReal) (ix2 0 k)
      = -(∑ e : Fin 32, @HMul.hMul EReal EReal EReal _ ((m ((c : Thread nD τ).loc main_arg2) : S512x32.Idx → EReal) (ix2 k e)) ((m ((c : Thread nD τ).loc main_arg2) : S512x32.Idx → EReal) (ix2 k e))) :=
  (congrFun (term_v10 m c) _).trans (read_v10 _ k)

theorem host_v13 (k : Fin 512) (x : Fin 64) :
    (Gen.V1 (F := Ideal) m c (Proc.devRef .tc main_v13) : S512x64.Idx → EReal) (ix2 k x)
      = if h : x.val < 32 then (m ((c : Thread nD τ).loc main_arg2) : S512x32.Idx → EReal) (ix2 k ⟨x.val, h⟩) else Cert.Spec.one :=
  (congrFun (term_v13 m c) _).trans (read_v13 _ k x)

/-! ## The quantizer over operands with those entries -/

/-- Four arrays whose entries are the regrouped code vectors, the doubled transposed codebook, the negated squared
    norms and the codebook widened by ones make the quantizer the specification's weight matrix: the logits agree term
    by term, the numerator reads the codebook's column and the denominator the ones. -/
theorem Wgen_eq_WK (A0 : Cert.Spec.S32x2048x32.Idx → EReal) (A1 : Cert.Spec.S32x512.Idx → EReal)
    (A2 : Cert.Spec.S1x512.Idx → EReal) (A3 : Cert.Spec.S512x64.Idx → EReal)
    (x1 : Cert.Spec.S2097152.Idx → EReal) (x2 : Cert.Spec.S512x32.Idx → EReal)
    (h0 : ∀ (j : Fin 32) (r : Fin 2048) (e : Fin 32),
      A0 (ix3 j r e) = x1 (ix1 ⟨32 * (32 * r.val + j.val) + e.val, by have := j.isLt; have := r.isLt; have := e.isLt; omega⟩))
    (h1 : ∀ (e : Fin 32) (k : Fin 512), A1 (ix2 e k) = Cert.Spec.two * x2 (ix2 k e))
    (h2 : ∀ k : Fin 512, A2 (ix2 0 k) = -(∑ e : Fin 32, x2 (ix2 k e) * x2 (ix2 k e)))
    (h3 : ∀ (k : Fin 512) (x : Fin 64), A3 (ix2 k x) = if h : x.val < 32 then x2 (ix2 k ⟨x.val, h⟩) else Cert.Spec.one)
    (r : Fin 2048) (col : Fin 1024) :
    Cert.Spec.Wgen (R := 2048) A0 A1 A2 A3 r col = Cert.Spec.WK (Cert.Spec.pOf x1) (Cert.Spec.cbOf x2) r col := by
  have hc := col.isLt
  have hm : col.val % 32 < 32 := Nat.mod_lt _ (by decide)
  unfold Cert.Spec.Wgen Cert.Spec.logitG Cert.Spec.WK Cert.Spec.qK Cert.Spec.logitK
  simp only [h0, h1, h2, h3]
  simp only [dif_pos hm, dif_neg (show ¬ (32 + col.val % 32 < 32) by omega)]
  rfl

/-- The quantizer over the staged operands is the specification's weight matrix. -/
theorem Wgen_host (r : Fin 2048) (col : Fin 1024) :
    Cert.Spec.Wgen (R := 2048) (Gen.V1 (F := Ideal) m c (Proc.devRef .tc main_v2)) (Gen.V1 (F := Ideal) m c (Proc.devRef .tc main_v6))
        (Gen.V1 (F := Ideal) m c (Proc.devRef .tc main_v10)) (Gen.V1 (F := Ideal) m c (Proc.devRef .tc main_v13)) r col
      = Cert.Spec.WK (Cert.Spec.pOf (m ((c : Thread nD τ).loc main_arg1) : S2097152.Idx → EReal)) (Cert.Spec.cbOf (m ((c : Thread nD τ).loc main_arg2) : S512x32.Idx → EReal)) r col :=
  Wgen_eq_WK _ _ _ _ _ _ (host_v2 m c) (host_v6 m c) (host_v10 m c) (host_v13 m c) r col

end Cert.KernelIdeal.Hand

end
-- ==== Proof.KI.Value.lean ====
/-
  The kernel's result as one function of the three argument arrays, at the exact instance.

  The result array ends at what the perceptron's write-backs leave over the activations (the first argument, untouched
  by the prologue and the quantizer) and the weight matrix; the weight matrix is what the quantizer's write-backs leave
  over the four arrays the host prologue computed from the parameter vector and the codebook; read through the prologue
  that is the specification's `WK`, so the result is `Cert.Spec.outK` of the arguments.
-/
import proofs.«130315_g53111565582714_cont_9to1c4b_343_14_alg».proof.Proof.KI.Main
import proofs.«130315_g53111565582714_cont_9to1c4b_343_14_alg».proof.Proof.KI.ArrQ
import proofs.«130315_g53111565582714_cont_9to1c4b_343_14_alg».proof.Proof.KI.ValueM
import proofs.«130315_g53111565582714_cont_9to1c4b_343_14_alg».proof.Proof.KI.HostVals

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ)

/-- The activations reach the perceptron region as launched. -/
theorem U2_main_arg0 (c : Dev nD) : U2 m c main_arg0 = m ((c : Thread nD τ).loc main_arg0) :=
  (W2_of_ne m c main_arg0 (by decide)).trans <| (Gen.V1_of m c main_arg0 (by decide)).trans rfl

/-- The weight matrix the perceptron region finds is the specification's, entry by entry. -/
theorem U2_main_v14 (c : Dev nD) (r : Fin 2048) (k : Fin 1024) :
    (U2 m c main_v14 : S2048x1024.Idx → EReal) (ValueIdx.ix2 r k)
      = Cert.Spec.WK (Cert.Spec.pOf (m ((c : Thread nD τ).loc main_arg1))) (Cert.Spec.cbOf (m ((c : Thread nD τ).loc main_arg2))) r k := by
  have h : (U2 m c main_v14 : S2048x1024.Idx → EReal) = _ := (W2_arr m c 4).trans (W_final (U1 m) c)
  rw [h]
  exact Wgen_host m c r k

/-- The result array after the run is the specification's function of the arguments. -/
theorem out_eq (c : Dev nD) :
    ((dat1 (F := Ideal) (U2 m) c).arrAt 3 cfg1.N : S2048x1024.Idx → EReal)
      = Cert.Spec.outK (m ((c : Thread nD τ).loc main_arg0)) (m ((c : Thread nD τ).loc main_arg1)) (m ((c : Thread nD τ).loc main_arg2)) := by
  rw [out_final (U2 m) c]
  funext i
  unfold Cert.Spec.outK
  rw [U2_main_arg0 m c]
  congr 1
  funext r k
  exact U2_main_v14 m c r k

end Cert.KernelIdeal.Hand

end
-- ==== Proof.RefM.lean ====
/-
  The shift the reference's softmax subtracts at each code vector: the maximum of the 512 scores of that code vector
  (joined once more with −∞, as the reference does). Code vectors 0 … 32767 belong to the first quantizer call (the
  first half of the parameter vector), 32768 … 65535 to the second.
-/
import proofs.«130315_g53111565582714_cont_9to1c4b_343_14_alg».proof.Proof.Gen.ReferenceIdeal.Read
import Idealize.ShloMosaic.Lib.ValueIdx

noncomputable section

namespace Cert.RefValue

open Idealize.ShloMosaic Cert.ReferenceIdeal Cert.ReferenceIdeal.Read

/-- The softmax shift of code vector `n`. -/
def Mrow (x1 : (⟨S2097152, .f32⟩ : BufTy).Contents (Elt Ideal)) (x2 : (⟨S512x32, .f32⟩ : BufTy).Contents (Elt Ideal))
    (n : Fin 65536) : EReal :=
  if h : n.val < 32768 then val_main_v19 (F := Ideal) x1 x2 (ValueIdx.ix1 ⟨n.val, h⟩)
  else val_main_v50 (F := Ideal) x1 x2 (ValueIdx.ix1 ⟨n.val - 32768, by have := n.isLt; omega⟩)

end Cert.RefValue

end
-- ==== Proof.RefValue.lean ====
/-
  The reference program's result is the perceptron over the weight matrix rebuilt by the reference's spelling of the
  soft assignment, the softmax shifted at each code vector by that code vector's own maximum score.

  The reference rebuilds the two 1024 × 1024 weight matrices separately: the first from the first half of the flat
  parameter vector (code vectors 0 … 32767), the second from the second half (code vectors 32768 … 65535). Each
  rebuilt matrix is read one entry at a time: entry `(a, b)` of a half is coordinate `b % 32` of that half's code
  vector `32 a + b / 32`, which is the soft assignment `qR` of that code vector. The two matrix products and the
  rectifier between them are then the perceptron `mlp` over the stacked matrix.
-/
import proofs.«130315_g53111565582714_cont_9to1c4b_343_14_alg».proof.Proof.Gen.ReferenceIdeal.Read
import proofs.«130315_g53111565582714_cont_9to1c4b_343_14_alg».proof.Proof.Spec
import proofs.«130315_g53111565582714_cont_9to1c4b_343_14_alg».proof.Proof.RefM
import Idealize.ShloMosaic.Lib.ValueIdx
import Idealize.ShloMosaic.PureOps.Ideal
import Idealize.ShloMosaic.PureOps.Ideal.Laws

noncomputable section

namespace Cert.RefValue

open Idealize.ShloMosaic Idealize.ShloMosaic.ValueIdx Cert.ReferenceIdeal Cert.ReferenceIdeal.Read

/-- The three argument arrays' types: the activations, the flat parameter vector, the codebook. -/
abbrev ArrX : Type := (⟨S2048x1024, .f32⟩ : BufTy).Contents (Elt Ideal)
abbrev ArrP : Type := (⟨S2097152, .f32⟩ : BufTy).Contents (Elt Ideal)
abbrev ArrC : Type := (⟨S512x32, .f32⟩ : BufTy).Contents (Elt Ideal)

/-- Code vector `n` of the first half of the parameter vector, among all 65536 code vectors. -/
abbrev lo (n : Fin 32768) : Fin 65536 := ⟨n.val, by have := n.isLt; omega⟩
/-- Code vector `n` of the second half of the parameter vector, among all 65536 code vectors. -/
abbrev hi (n : Fin 32768) : Fin 65536 := ⟨32768 + n.val, by have := n.isLt; omega⟩

/-- The shift at a code vector of the first half is the first quantizer call's row maximum. -/
theorem Mrow_lo (x1 : ArrP) (x2 : ArrC) (n : Fin 32768) :
    Mrow x1 x2 (lo n) = val_main_v19 (F := Ideal) x1 x2 (ix1 n) := by
  unfold Mrow
  rw [dif_pos (show (lo n).val < 32768 from n.isLt)]

/-- The shift at a code vector of the second half is the second quantizer call's row maximum. -/
theorem Mrow_hi (x1 : ArrP) (x2 : ArrC) (n : Fin 32768) :
    Mrow x1 x2 (hi n) = val_main_v50 (F := Ideal) x1 x2 (ix1 n) := by
  unfold Mrow
  rw [dif_neg (show ¬ (hi n).val < 32768 by show ¬ 32768 + n.val < 32768; omega)]
  exact congrArg (fun t : Fin 32768 => val_main_v50 (F := Ideal) x1 x2 (ix1 t))
    (Fin.ext (by show 32768 + n.val - 32768 = n.val; omega))

/-! ## The first quantizer call: code vectors 0 … 32767 -/

/-- The first half of the parameter vector, regrouped in rows of 32: row `n` is code vector `n`. -/
theorem codes_lo (x1 : ArrP) (n : Fin 32768) (e : Fin 32) :
    val_main_v1 (F := Ideal) x1 (ix2 n e) = Spec.code (Spec.pOf x1) (lo n) e := by
  rw [val_main_v1_apply, val_main_v0_apply]
  show x1 _ = x1 _
  exact congrArg x1 (funext fun a => Fin.ext (by
    match a with
    | ⟨0, _⟩ => show n.val * 32 + e.val = 32 * n.val + e.val; omega))

/-- The squared norm of code vector `n`. -/
theorem norm_lo (x1 : ArrP) (n : Fin 32768) :
    val_main_v3 (F := Ideal) x1 (ix1 n)
      = ∑ e : Fin 32, Spec.code (Spec.pOf x1) (lo n) e * Spec.code (Spec.pOf x1) (lo n) e := by
  rw [val_main_v3_apply, val_main_cst_apply, Ideal.ofBits_def, Ideal.ofBits_zero_f32, zero_add]
  refine Finset.sum_congr rfl fun e _ => ?_
  have h : idx_main_v3 (ix1 n) e = ix2 n e :=
    funext fun a => Fin.ext (by match a with | ⟨0, _⟩ => rfl | ⟨1, _⟩ => rfl)
  rw [val_main_v2_apply, h, codes_lo]
  rfl

/-- The transposed codebook. -/
theorem cbT_lo (x2 : ArrC) (e : Fin 32) (k : Fin 512) :
    val_main_v5 (F := Ideal) x2 (ix2 e k) = Spec.cbOf x2 k e := by
  rw [val_main_v5_apply]
  show x2 _ = x2 _
  exact congrArg x2 (funext fun a => Fin.ext (by match a with | ⟨0, _⟩ => rfl | ⟨1, _⟩ => rfl))

/-- The inner product of code vector `n` with codebook row `k`. -/
theorem inner_lo (x1 : ArrP) (x2 : ArrC) (n : Fin 32768) (k : Fin 512) :
    val_main_v6 (F := Ideal) x1 x2 (ix2 n k)
      = ∑ e : Fin 32, Spec.code (Spec.pOf x1) (lo n) e * Spec.cbOf x2 k e := by
  rw [val_main_v6_apply]
  refine Finset.sum_congr rfl fun e _ => ?_
  have hl : lidx_main_v6 (ix2 n k) e = ix2 n e :=
    funext fun a => Fin.ext (by match a with | ⟨0, _⟩ => rfl | ⟨1, _⟩ => rfl)
  have hr : ridx_main_v6 (ix2 n k) e = ix2 e k :=
    funext fun a => Fin.ext (by match a with | ⟨0, _⟩ => rfl | ⟨1, _⟩ => rfl)
  rw [hl, hr, codes_lo, cbT_lo]

/-- The squared norm of codebook row `k`. -/
theorem cbnorm_lo (x2 : ArrC) (k : Fin 512) :
    val_main_v12 (F := Ideal) x2 (ix1 k) = ∑ e : Fin 32, Spec.cbOf x2 k e * Spec.cbOf x2 k e := by
  rw [val_main_v12_apply, val_main_cst_1_apply, Ideal.ofBits_def, Ideal.ofBits_zero_f32, zero_add]
  refine Finset.sum_congr rfl fun e _ => ?_
  have h : idx_main_v12 (ix1 k) e = ix2 k e :=
    funext fun a => Fin.ext (by match a with | ⟨0, _⟩ => rfl | ⟨1, _⟩ => rfl)
  rw [val_main_v11_apply, h]
  rfl

/-- The score of codebook row `k` at code vector `n`: minus the squared distance, as the reference expands it. -/
theorem score_lo (x1 : ArrP) (x2 : ArrC) (n : Fin 32768) (k : Fin 512) :
    val_main_v16 (F := Ideal) x1 x2 (ix2 n k)
      = Spec.scoreR (Spec.code (Spec.pOf x1) (lo n)) (Spec.cbOf x2) k := by
  have h4 : idx_main_v4 (idx_main_v9 (ix2 n k)) = ix1 n :=
    funext fun a => Fin.ext (by match a with | ⟨0, _⟩ => rfl)
  have h13 : idx_main_v13 (idx_main_v14 (ix2 n k)) = ix1 k :=
    funext fun a => Fin.ext (by match a with | ⟨0, _⟩ => rfl)
  rw [val_main_v16_apply, val_main_v15_apply, val_main_v10_apply, val_main_v8_apply, val_main_v9_apply,
    val_main_v4_apply, val_main_v7_apply, val_main_cst_0_apply, val_main_v14_apply, val_main_v13_apply,
    h4, h13, norm_lo, inner_lo, cbnorm_lo]
  rfl

/-- The shifted, exponentiated score. -/
theorem expo_lo (x1 : ArrP) (x2 : ArrC) (n : Fin 32768) (k : Fin 512) :
    val_main_v23 (F := Ideal) x1 x2 (ix2 n k)
      = Ideal.exp (Spec.scoreR (Spec.code (Spec.pOf x1) (lo n)) (Spec.cbOf x2) k - Mrow x1 x2 (lo n)) := by
  have h : idx_main_v20 (idx_main_v21 (ix2 n k)) = ix1 n :=
    funext fun a => Fin.ext (by match a with | ⟨0, _⟩ => rfl)
  rw [val_main_v23_apply, val_main_v22_apply, val_main_v21_apply, val_main_v20_apply, h, score_lo, Mrow_lo]
  rfl

/-- The softmax denominator of code vector `n`. -/
theorem denom_lo (x1 : ArrP) (x2 : ArrC) (n : Fin 32768) :
    val_main_v24 (F := Ideal) x1 x2 (ix1 n)
      = ∑ k : Fin 512,
          Ideal.exp (Spec.scoreR (Spec.code (Spec.pOf x1) (lo n)) (Spec.cbOf x2) k - Mrow x1 x2 (lo n)) := by
  rw [val_main_v24_apply, val_main_cst_4_apply, Ideal.ofBits_def, Ideal.ofBits_zero_f32, zero_add]
  refine Finset.sum_congr rfl fun k _ => ?_
  have h : idx_main_v24 (ix1 n) k = ix2 n k :=
    funext fun a => Fin.ext (by match a with | ⟨0, _⟩ => rfl | ⟨1, _⟩ => rfl)
  rw [h, expo_lo]

/-- The soft assignment of code vector `n` to codebook row `k`. -/
theorem assign_lo (x1 : ArrP) (x2 : ArrC) (n : Fin 32768) (k : Fin 512) :
    val_main_v27 (F := Ideal) x1 x2 (ix2 n k)
      = Ideal.div
          (Ideal.exp (Spec.scoreR (Spec.code (Spec.pOf x1) (lo n)) (Spec.cbOf x2) k - Mrow x1 x2 (lo n)))
          (∑ k' : Fin 512,
            Ideal.exp (Spec.scoreR (Spec.code (Spec.pOf x1) (lo n)) (Spec.cbOf x2) k' - Mrow x1 x2 (lo n))) := by
  have h : idx_main_v25 (idx_main_v26 (ix2 n k)) = ix1 n :=
    funext fun a => Fin.ext (by match a with | ⟨0, _⟩ => rfl)
  rw [val_main_v27_apply, val_main_v26_apply, val_main_v25_apply, h, expo_lo, denom_lo]
  rfl

/-- Code vector `n` rebuilt: the assignment-weighted mean of the codebook rows. -/
theorem rebuilt_lo (x1 : ArrP) (x2 : ArrC) (n : Fin 32768) (d : Fin 32) :
    val_main_v28 (F := Ideal) x1 x2 (ix2 n d)
      = Spec.qR (Mrow x1 x2 (lo n)) (Spec.code (Spec.pOf x1) (lo n)) (Spec.cbOf x2) d := by
  rw [val_main_v28_apply]
  unfold Spec.qR
  refine Finset.sum_congr rfl fun k _ => ?_
  have hl : lidx_main_v28 (ix2 n d) k = ix2 n k :=
    funext fun a => Fin.ext (by match a with | ⟨0, _⟩ => rfl | ⟨1, _⟩ => rfl)
  have hr : ridx_main_v28 (ix2 n d) k = ix2 k d :=
    funext fun a => Fin.ext (by match a with | ⟨0, _⟩ => rfl | ⟨1, _⟩ => rfl)
  rw [hl, hr, assign_lo]
  rfl

/-- The first weight matrix: entry `(a, b)` is entry `(a, b)` of the upper half of the stacked matrix. -/
theorem w_lo (x1 : ArrP) (x2 : ArrC) (a : Fin 1024) (b : Fin 1024) :
    val_main_v30 (F := Ideal) x1 x2 (ix2 a b)
      = Spec.WR (Mrow x1 x2) (Spec.pOf x1) (Spec.cbOf x2) ⟨a.val, by have := a.isLt; omega⟩ b := by
  have h : idx_main_v29 (idx_main_v30 (ix2 a b))
      = ix2 (⟨32 * a.val + b.val / 32, by have := a.isLt; have := b.isLt; omega⟩ : Fin 32768)
          (⟨b.val % 32, Nat.mod_lt _ (by decide)⟩ : Fin 32) :=
    funext fun d => Fin.ext (by
      have := a.isLt; have := b.isLt
      match d with
      | ⟨0, _⟩ => show (a.val * 1024 + b.val) / 32 = 32 * a.val + b.val / 32; omega
      | ⟨1, _⟩ => show (a.val * 1024 + b.val) % 32 = b.val % 32; omega)
  rw [val_main_v30_apply, val_main_v29_apply, h, rebuilt_lo]
  rfl

/-! ## The second quantizer call: code vectors 32768 … 65535 -/

/-- The second half of the parameter vector, regrouped in rows of 32: row `n` is code vector `32768 + n`. -/
theorem codes_hi (x1 : ArrP) (n : Fin 32768) (e : Fin 32) :
    val_main_v32 (F := Ideal) x1 (ix2 n e) = Spec.code (Spec.pOf x1) (hi n) e := by
  rw [val_main_v32_apply, val_main_v31_apply]
  show x1 _ = x1 _
  exact congrArg x1 (funext fun a => Fin.ext (by
    match a with
    | ⟨0, _⟩ => show 1048576 + (n.val * 32 + e.val) = 32 * (32768 + n.val) + e.val; omega))

/-- The squared norm of code vector `32768 + n`. -/
theorem norm_hi (x1 : ArrP) (n : Fin 32768) :
    val_main_v34 (F := Ideal) x1 (ix1 n)
      = ∑ e : Fin 32, Spec.code (Spec.pOf x1) (hi n) e * Spec.code (Spec.pOf x1) (hi n) e := by
  rw [val_main_v34_apply, val_main_cst_5_apply, Ideal.ofBits_def, Ideal.ofBits_zero_f32, zero_add]
  refine Finset.sum_congr rfl fun e _ => ?_
  have h : idx_main_v34 (ix1 n) e = ix2 n e :=
    funext fun a => Fin.ext (by match a with | ⟨0, _⟩ => rfl | ⟨1, _⟩ => rfl)
  rw [val_main_v33_apply, h, codes_hi]
  rfl

/-- The transposed codebook, as the second call builds it again. -/
theorem cbT_hi (x2 : ArrC) (e : Fin 32) (k : Fin 512) :
    val_main_v36 (F := Ideal) x2 (ix2 e k) = Spec.cbOf x2 k e := by
  rw [val_main_v36_apply]
  show x2 _ = x2 _
  exact congrArg x2 (funext fun a => Fin.ext (by match a with | ⟨0, _⟩ => rfl | ⟨1, _⟩ => rfl))

/-- The inner product of code vector `32768 + n` with codebook row `k`. -/
theorem inner_hi (x1 : ArrP) (x2 : ArrC) (n : Fin 32768) (k : Fin 512) :
    val_main_v37 (F := Ideal) x1 x2 (ix2 n k)
      = ∑ e : Fin 32, Spec.code (Spec.pOf x1) (hi n) e * Spec.cbOf x2 k e := by
  rw [val_main_v37_apply]
  refine Finset.sum_congr rfl fun e _ => ?_
  have hl : lidx_main_v37 (ix2 n k) e = ix2 n e :=
    funext fun a => Fin.ext (by match a with | ⟨0, _⟩ => rfl | ⟨1, _⟩ => rfl)
  have hr : ridx_main_v37 (ix2 n k) e = ix2 e k :=
    funext fun a => Fin.ext (by match a with | ⟨0, _⟩ => rfl | ⟨1, _⟩ => rfl)
  rw [hl, hr, codes_hi, cbT_hi]

/-- The squared norm of codebook row `k`, as the second call sums it again. -/
theorem cbnorm_hi (x2 : ArrC) (k : Fin 512) :
    val_main_v43 (F := Ideal) x2 (ix1 k) = ∑ e : Fin 32, Spec.cbOf x2 k e * Spec.cbOf x2 k e := by
  rw [val_main_v43_apply, val_main_cst_7_apply, Ideal.ofBits_def, Ideal.ofBits_zero_f32, zero_add]
  refine Finset.sum_congr rfl fun e _ => ?_
  have h : idx_main_v43 (ix1 k) e = ix2 k e :=
    funext fun a => Fin.ext (by match a with | ⟨0, _⟩ => rfl | ⟨1, _⟩ => rfl)
  rw [val_main_v42_apply, h]
  rfl

/-- The score of codebook row `k` at code vector `32768 + n`. -/
theorem score_hi (x1 : ArrP) (x2 : ArrC) (n : Fin 32768) (k : Fin 512) :
    val_main_v47 (F := Ideal) x1 x2 (ix2 n k)
      = Spec.scoreR (Spec.code (Spec.pOf x1) (hi n)) (Spec.cbOf x2) k := by
  have h35 : idx_main_v35 (idx_main_v40 (ix2 n k)) = ix1 n :=
    funext fun a => Fin.ext (by match a with | ⟨0, _⟩ => rfl)
  have h44 : idx_main_v44 (idx_main_v45 (ix2 n k)) = ix1 k :=
    funext fun a => Fin.ext (by match a with | ⟨0, _⟩ => rfl)
  rw [val_main_v47_apply, val_main_v46_apply, val_main_v41_apply, val_main_v39_apply, val_main_v40_apply,
    val_main_v35_apply, val_main_v38_apply, val_main_cst_6_apply, val_main_v45_apply, val_main_v44_apply,
    h35, h44, norm_hi, inner_hi, cbnorm_hi]
  rfl

/-- The shifted, exponentiated score. -/
theorem expo_hi (x1 : ArrP) (x2 : ArrC) (n : Fin 32768) (k : Fin 512) :
    val_main_v54 (F := Ideal) x1 x2 (ix2 n k)
      = Ideal.exp (Spec.scoreR (Spec.code (Spec.pOf x1) (hi n)) (Spec.cbOf x2) k - Mrow x1 x2 (hi n)) := by
  have h : idx_main_v51 (idx_main_v52 (ix2 n k)) = ix1 n :=
    funext fun a => Fin.ext (by match a with | ⟨0, _⟩ => rfl)
  rw [val_main_v54_apply, val_main_v53_apply, val_main_v52_apply, val_main_v51_apply, h, score_hi, Mrow_hi]
  rfl

/-- The softmax denominator of code vector `32768 + n`. -/
theorem denom_hi (x1 : ArrP) (x2 : ArrC) (n : Fin 32768) :
    val_main_v55 (F := Ideal) x1 x2 (ix1 n)
      = ∑ k : Fin 512,
          Ideal.exp (Spec.scoreR (Spec.code (Spec.pOf x1) (hi n)) (Spec.cbOf x2) k - Mrow x1 x2 (hi n)) := by
  rw [val_main_v55_apply, val_main_cst_10_apply, Ideal.ofBits_def, Ideal.ofBits_zero_f32, zero_add]
  refine Finset.sum_congr rfl fun k _ => ?_
  have h : idx_main_v55 (ix1 n) k = ix2 n k :=
    funext fun a => Fin.ext (by match a with | ⟨0, _⟩ => rfl | ⟨1, _⟩ => rfl)
  rw [h, expo_hi]

/-- The soft assignment of code vector `32768 + n` to codebook row `k`. -/
theorem assign_hi (x1 : ArrP) (x2 : ArrC) (n : Fin 32768) (k : Fin 512) :
    val_main_v58 (F := Ideal) x1 x2 (ix2 n k)
      = Ideal.div
          (Ideal.exp (Spec.scoreR (Spec.code (Spec.pOf x1) (hi n)) (Spec.cbOf x2) k - Mrow x1 x2 (hi n)))
          (∑ k' : Fin 512,
            Ideal.exp (Spec.scoreR (Spec.code (Spec.pOf x1) (hi n)) (Spec.cbOf x2) k' - Mrow x1 x2 (hi n))) := by
  have h : idx_main_v56 (idx_main_v57 (ix2 n k)) = ix1 n :=
    funext fun a => Fin.ext (by match a with | ⟨0, _⟩ => rfl)
  rw [val_main_v58_apply, val_main_v57_apply, val_main_v56_apply, h, expo_hi, denom_hi]
  rfl

/-- Code vector `32768 + n` rebuilt. -/
theorem rebuilt_hi (x1 : ArrP) (x2 : ArrC) (n : Fin 32768) (d : Fin 32) :
    val_main_v59 (F := Ideal) x1 x2 (ix2 n d)
      = Spec.qR (Mrow x1 x2 (hi n)) (Spec.code (Spec.pOf x1) (hi n)) (Spec.cbOf x2) d := by
  rw [val_main_v59_apply]
  unfold Spec.qR
  refine Finset.sum_congr rfl fun k _ => ?_
  have hl : lidx_main_v59 (ix2 n d) k = ix2 n k :=
    funext fun a => Fin.ext (by match a with | ⟨0, _⟩ => rfl | ⟨1, _⟩ => rfl)
  have hr : ridx_main_v59 (ix2 n d) k = ix2 k d :=
    funext fun a => Fin.ext (by match a with | ⟨0, _⟩ => rfl | ⟨1, _⟩ => rfl)
  rw [hl, hr, assign_hi]
  rfl

/-- The second weight matrix: entry `(a, b)` is entry `(1024 + a, b)` of the stacked matrix. -/
theorem w_hi (x1 : ArrP) (x2 : ArrC) (a : Fin 1024) (b : Fin 1024) :
    val_main_v61 (F := Ideal) x1 x2 (ix2 a b)
      = Spec.WR (Mrow x1 x2) (Spec.pOf x1) (Spec.cbOf x2) ⟨1024 + a.val, by have := a.isLt; omega⟩ b := by
  have h : idx_main_v60 (idx_main_v61 (ix2 a b))
      = ix2 (⟨32 * a.val + b.val / 32, by have := a.isLt; have := b.isLt; omega⟩ : Fin 32768)
          (⟨b.val % 32, Nat.mod_lt _ (by decide)⟩ : Fin 32) :=
    funext fun d => Fin.ext (by
      have := a.isLt; have := b.isLt
      match d with
      | ⟨0, _⟩ => show (a.val * 1024 + b.val) / 32 = 32 * a.val + b.val / 32; omega
      | ⟨1, _⟩ => show (a.val * 1024 + b.val) % 32 = b.val % 32; omega)
  have hc : hi (⟨32 * a.val + b.val / 32, by have := a.isLt; have := b.isLt; omega⟩ : Fin 32768)
      = Spec.codeOf ⟨1024 + a.val, by have := a.isLt; omega⟩ b :=
    Fin.ext (by show 32768 + (32 * a.val + b.val / 32) = 32 * (1024 + a.val) + b.val / 32; omega)
  rw [val_main_v61_apply, val_main_v60_apply, h, rebuilt_hi, hc]
  rfl

/-! ## The perceptron -/

/-- The first layer before the rectifier. -/
theorem layer1 (x0 : ArrX) (x1 : ArrP) (x2 : ArrC) (r : Fin 2048) (c : Fin 1024) :
    val_main_v62 (F := Ideal) x0 x1 x2 (ix2 r c)
      = ∑ j : Fin 1024, Spec.xOf x0 r j
          * Spec.WR (Mrow x1 x2) (Spec.pOf x1) (Spec.cbOf x2) ⟨j.val, by have := j.isLt; omega⟩ c := by
  rw [val_main_v62_apply]
  refine Finset.sum_congr rfl fun j _ => ?_
  have hl : lidx_main_v62 (ix2 r c) j = ix2 r j :=
    funext fun a => Fin.ext (by match a with | ⟨0, _⟩ => rfl | ⟨1, _⟩ => rfl)
  have hr : ridx_main_v62 (ix2 r c) j = ix2 j c :=
    funext fun a => Fin.ext (by match a with | ⟨0, _⟩ => rfl | ⟨1, _⟩ => rfl)
  rw [hl, hr, w_lo]
  rfl

/-- The first layer after the rectifier. -/
theorem hidden (x0 : ArrX) (x1 : ArrP) (x2 : ArrC) (r : Fin 2048) (c : Fin 1024) :
    val_main_v63 (F := Ideal) x0 x1 x2 (ix2 r c)
      = max (∑ j : Fin 1024, Spec.xOf x0 r j
          * Spec.WR (Mrow x1 x2) (Spec.pOf x1) (Spec.cbOf x2) ⟨j.val, by have := j.isLt; omega⟩ c) 0 := by
  rw [val_main_v63_apply, val_main_call0_v0_apply, val_main_call0_cst_apply, layer1, Ideal.ofBits_def,
    Ideal.ofBits_zero_f32]
  rfl

/-- The reference's result is the perceptron over the matrix rebuilt with each code vector's own shift. -/
theorem ref_eq (x0 : (⟨Cert.ReferenceIdeal.S2048x1024, .f32⟩ : BufTy).Contents (Elt Ideal))
    (x1 : (⟨Cert.ReferenceIdeal.S2097152, .f32⟩ : BufTy).Contents (Elt Ideal))
    (x2 : (⟨Cert.ReferenceIdeal.S512x32, .f32⟩ : BufTy).Contents (Elt Ideal)) :
    Cert.ReferenceIdeal.Read.val_main_v64 (F := Ideal) x0 x1 x2 = Cert.Spec.outR (Mrow x1 x2) x0 x1 x2 := by
  funext i
  obtain ⟨r, c, rfl⟩ : ∃ (r : Fin 2048) (c : Fin 1024), i = ix2 r c := ⟨i 0, i 1, eq_ix2 i⟩
  show _ = Spec.mlp (Spec.xOf x0) (Spec.WR (Mrow x1 x2) (Spec.pOf x1) (Spec.cbOf x2)) r c
  rw [val_main_v64_apply]
  unfold Spec.mlp
  refine Finset.sum_congr rfl fun k _ => ?_
  have hl : lidx_main_v64 (ix2 r c) k = ix2 r k :=
    funext fun a => Fin.ext (by match a with | ⟨0, _⟩ => rfl | ⟨1, _⟩ => rfl)
  have hr : ridx_main_v64 (ix2 r c) k = ix2 k c :=
    funext fun a => Fin.ext (by match a with | ⟨0, _⟩ => rfl | ⟨1, _⟩ => rfl)
  rw [hl, hr, hidden, w_hi]

end Cert.RefValue

end
-- ==== Proof.RefMax.lean ====
/-
  The softmax shift of every code vector is a real number when the parameters and the codebook are real.

  Each score of a code vector against a codebook row is built from the inputs by finitely many sums, differences,
  products and negations and the constants 0 and 2, so it is a real number. The shift is the maximum of the 512 scores
  of the code vector, joined with −∞; the maximum of a nonempty finite family of reals, joined with −∞, is a real.
-/
import proofs.«130315_g53111565582714_cont_9to1c4b_343_14_alg».proof.Proof.RefM
import proofs.«130315_g53111565582714_cont_9to1c4b_343_14_alg».proof.Proof.Spec
import Idealize.ShloMosaic.PureOps.Ideal.Laws
import Idealize.ShloMosaic.PureOps.Reduce
import Idealize.ShloMosaic.Lib.ValueIdx
import Mathlib.Data.EReal.Operations
import Mathlib.Data.Finset.Fold

noncomputable section

namespace Cert.RefValue

open Idealize.ShloMosaic Cert.ReferenceIdeal Cert.ReferenceIdeal.Gen Cert.ReferenceIdeal.Read

/-! ## Real numbers among the extended reals -/

/-- An extended real that is a real number. -/
def IsReal (x : EReal) : Prop := ∃ r : ℝ, x = (r : EReal)

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_neg {x : EReal} (hx : IsReal x) : IsReal (-x) := by
  obtain ⟨a, rfl⟩ := hx; exact ⟨-a, (EReal.coe_neg a).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_zero : IsReal 0 := ⟨0, rfl⟩

/-- A finite sum of reals is a real. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- The maximum of a nonempty finite family of reals, joined with −∞, is a real: it is above one of them, so it is not
    −∞, and each of them and −∞ is below +∞, so it is not +∞. -/
theorem isReal_fold_max {ι : Type} (s : Finset ι) (hs : s.Nonempty) (f : ι → EReal) (h : ∀ i ∈ s, IsReal (f i)) :
    IsReal (s.fold max ⊥ f) := by
  have hb : s.fold max ⊥ f ≠ ⊥ := by
    obtain ⟨i, hi⟩ := hs
    obtain ⟨r, hr⟩ := h i hi
    exact ne_of_gt ((Finset.lt_fold_max _).2 (Or.inr ⟨i, hi, by rw [hr]; exact EReal.bot_lt_coe r⟩))
  have ht : s.fold max ⊥ f ≠ ⊤ :=
    ne_of_lt ((Finset.fold_max_lt _).2 ⟨bot_lt_top, fun i hi => by
      obtain ⟨r, hr⟩ := h i hi; rw [hr]; exact EReal.coe_lt_top r⟩)
  exact ⟨_, (EReal.coe_toReal ht hb).symm⟩

/-! ## The three constants the scores are built with -/

/-- The word `0x40000000` denotes the real 2. -/
theorem isReal_two : IsReal (Ideal.ofBits .f32 0x40000000#32) :=
  ⟨2, by simp [Ideal.ofBits, Ideal.ieee, -EReal.coe_mul]; norm_num⟩

/-- The word `0xFF800000` denotes −∞. -/
theorem ofBits_negInf : Ideal.ofBits .f32 0xFF800000#32 = ⊥ := by
  simp [Ideal.ofBits, Ideal.ieee]

/-! ## The scores of the first 32768 code vectors -/

/-- The code vectors' coordinates are entries of the parameter vector. -/
theorem real_v1 (x1 : (⟨S2097152, .f32⟩ : BufTy).Contents (Elt Ideal)) (h1 : Cert.Spec.AllReal x1) (i : S32768x32.Idx) :
    IsReal (val_main_v1 (F := Ideal) x1 i) := by
  rw [val_main_v1_apply, val_main_v0_apply]; exact h1 _

/-- The squared norm of a code vector: 0 plus the sum of the squares of its 32 coordinates. -/
theorem real_v3 (x1 : (⟨S2097152, .f32⟩ : BufTy).Contents (Elt Ideal)) (h1 : Cert.Spec.AllReal x1) (i : S32768.Idx) :
    IsReal (val_main_v3 (F := Ideal) x1 i) := by
  rw [val_main_v3_apply, val_main_cst_apply, Ideal.ofBits_def, Ideal.ofBits_zero_f32]
  refine isReal_add isReal_zero (isReal_sum _ _ fun k _ => ?_)
  rw [val_main_v2_apply, Ideal.mulf_def]
  exact isReal_mul (real_v1 x1 h1 _) (real_v1 x1 h1 _)

/-- The dot product of a code vector with a codebook row. -/
theorem real_v6 (x1 : (⟨S2097152, .f32⟩ : BufTy).Contents (Elt Ideal)) (x2 : (⟨S512x32, .f32⟩ : BufTy).Contents (Elt Ideal)) (h1 : Cert.Spec.AllReal x1) (h2 : Cert.Spec.AllReal x2) (i : S32768x512.Idx) :
    IsReal (val_main_v6 (F := Ideal) x1 x2 i) := by
  rw [val_main_v6_apply]
  refine isReal_sum _ _ fun k _ => isReal_mul (real_v1 x1 h1 _) ?_
  rw [val_main_v5_apply]; exact h2 _

/-- The squared norm of a codebook row: 0 plus the sum of the squares of its 32 coordinates. -/
theorem real_v12 (x2 : (⟨S512x32, .f32⟩ : BufTy).Contents (Elt Ideal)) (h2 : Cert.Spec.AllReal x2) (i : S512.Idx) :
    IsReal (val_main_v12 (F := Ideal) x2 i) := by
  rw [val_main_v12_apply, val_main_cst_1_apply, Ideal.ofBits_def, Ideal.ofBits_zero_f32]
  refine isReal_add isReal_zero (isReal_sum _ _ fun k _ => ?_)
  rw [val_main_v11_apply, Ideal.mulf_def]
  exact isReal_mul (h2 _) (h2 _)

/-- A score: the negation of |v|² − 2 · (v · c) + |c|². -/
theorem real_v16 (x1 : (⟨S2097152, .f32⟩ : BufTy).Contents (Elt Ideal)) (x2 : (⟨S512x32, .f32⟩ : BufTy).Contents (Elt Ideal)) (h1 : Cert.Spec.AllReal x1) (h2 : Cert.Spec.AllReal x2) (i : S32768x512.Idx) :
    IsReal (val_main_v16 (F := Ideal) x1 x2 i) := by
  rw [val_main_v16_apply, Ideal.hostNegf_def, Ideal.negf_def, val_main_v15_apply, Ideal.addf_def,
    val_main_v10_apply, Ideal.subf_def, val_main_v9_apply, val_main_v4_apply, val_main_v8_apply,
    Ideal.mulf_def, val_main_v7_apply, val_main_cst_0_apply, Ideal.ofBits_def, val_main_v14_apply,
    val_main_v13_apply]
  exact isReal_neg (isReal_add (isReal_sub (real_v3 x1 h1 _) (isReal_mul isReal_two (real_v6 x1 x2 h1 h2 _)))
    (real_v12 x2 h2 _))

/-- The maximum of the 512 scores of a code vector, started from −∞. -/
theorem real_v17 (x1 : (⟨S2097152, .f32⟩ : BufTy).Contents (Elt Ideal)) (x2 : (⟨S512x32, .f32⟩ : BufTy).Contents (Elt Ideal)) (h1 : Cert.Spec.AllReal x1) (h2 : Cert.Spec.AllReal x2) (j : S32768.Idx) :
    IsReal (val_main_v17 (F := Ideal) x1 x2 j) := by
  unfold val_main_v17
  rw [Host.reduce_eq_fold_single FloatOps.maximumf _ _ reducesTo_S32768x512_S32768_d1 (by decide) h_S_ j,
    val_main_cst_2_apply, Ideal.ofBits_def, ofBits_negInf]
  exact isReal_fold_max _ ⟨⟨0, by decide⟩, Finset.mem_univ _⟩ _ fun k _ => real_v16 x1 x2 h1 h2 _

/-- Joined once more with −∞ it is unchanged. -/
theorem real_v19 (x1 : (⟨S2097152, .f32⟩ : BufTy).Contents (Elt Ideal)) (x2 : (⟨S512x32, .f32⟩ : BufTy).Contents (Elt Ideal)) (h1 : Cert.Spec.AllReal x1) (h2 : Cert.Spec.AllReal x2) (j : S32768.Idx) :
    IsReal (val_main_v19 (F := Ideal) x1 x2 j) := by
  rw [val_main_v19_apply, val_main_v18_apply, val_main_cst_3_apply, Ideal.ofBits_def, ofBits_negInf,
    Ideal.maximumf_def, max_eq_right bot_le]
  exact real_v17 x1 x2 h1 h2 j

/-! ## The scores of the last 32768 code vectors -/

/-- The code vectors' coordinates are entries of the parameter vector. -/
theorem real_v32 (x1 : (⟨S2097152, .f32⟩ : BufTy).Contents (Elt Ideal)) (h1 : Cert.Spec.AllReal x1) (i : S32768x32.Idx) :
    IsReal (val_main_v32 (F := Ideal) x1 i) := by
  rw [val_main_v32_apply, val_main_v31_apply]; exact h1 _

/-- The squared norm of a code vector: 0 plus the sum of the squares of its 32 coordinates. -/
theorem real_v34 (x1 : (⟨S2097152, .f32⟩ : BufTy).Contents (Elt Ideal)) (h1 : Cert.Spec.AllReal x1) (i : S32768.Idx) :
    IsReal (val_main_v34 (F := Ideal) x1 i) := by
  rw [val_main_v34_apply, val_main_cst_5_apply, Ideal.ofBits_def, Ideal.ofBits_zero_f32]
  refine isReal_add isReal_zero (isReal_sum _ _ fun k _ => ?_)
  rw [val_main_v33_apply, Ideal.mulf_def]
  exact isReal_mul (real_v32 x1 h1 _) (real_v32 x1 h1 _)

/-- The dot product of a code vector with a codebook row. -/
theorem real_v37 (x1 : (⟨S2097152, .f32⟩ : BufTy).Contents (Elt Ideal)) (x2 : (⟨S512x32, .f32⟩ : BufTy).Contents (Elt Ideal)) (h1 : Cert.Spec.AllReal x1) (h2 : Cert.Spec.AllReal x2) (i : S32768x512.Idx) :
    IsReal (val_main_v37 (F := Ideal) x1 x2 i) := by
  rw [val_main_v37_apply]
  refine isReal_sum _ _ fun k _ => isReal_mul (real_v32 x1 h1 _) ?_
  rw [val_main_v36_apply]; exact h2 _

/-- The squared norm of a codebook row: 0 plus the sum of the squares of its 32 coordinates. -/
theorem real_v43 (x2 : (⟨S512x32, .f32⟩ : BufTy).Contents (Elt Ideal)) (h2 : Cert.Spec.AllReal x2) (i : S512.Idx) :
    IsReal (val_main_v43 (F := Ideal) x2 i) := by
  rw [val_main_v43_apply, val_main_cst_7_apply, Ideal.ofBits_def, Ideal.ofBits_zero_f32]
  refine isReal_add isReal_zero (isReal_sum _ _ fun k _ => ?_)
  rw [val_main_v42_apply, Ideal.mulf_def]
  exact isReal_mul (h2 _) (h2 _)

/-- A score: the negation of |v|² − 2 · (v · c) + |c|². -/
theorem real_v47 (x1 : (⟨S2097152, .f32⟩ : BufTy).Contents (Elt Ideal)) (x2 : (⟨S512x32, .f32⟩ : BufTy).Contents (Elt Ideal)) (h1 : Cert.Spec.AllReal x1) (h2 : Cert.Spec.AllReal x2) (i : S32768x512.Idx) :
    IsReal (val_main_v47 (F := Ideal) x1 x2 i) := by
  rw [val_main_v47_apply, Ideal.hostNegf_def, Ideal.negf_def, val_main_v46_apply, Ideal.addf_def,
    val_main_v41_apply, Ideal.subf_def, val_main_v40_apply, val_main_v35_apply, val_main_v39_apply,
    Ideal.mulf_def, val_main_v38_apply, val_main_cst_6_apply, Ideal.ofBits_def, val_main_v45_apply,
    val_main_v44_apply]
  exact isReal_neg (isReal_add (isReal_sub (real_v34 x1 h1 _) (isReal_mul isReal_two (real_v37 x1 x2 h1 h2 _)))
    (real_v43 x2 h2 _))

/-- The maximum of the 512 scores of a code vector, started from −∞. -/
theorem real_v48 (x1 : (⟨S2097152, .f32⟩ : BufTy).Contents (Elt Ideal)) (x2 : (⟨S512x32, .f32⟩ : BufTy).Contents (Elt Ideal)) (h1 : Cert.Spec.AllReal x1) (h2 : Cert.Spec.AllReal x2) (j : S32768.Idx) :
    IsReal (val_main_v48 (F := Ideal) x1 x2 j) := by
  unfold val_main_v48
  rw [Host.reduce_eq_fold_single FloatOps.maximumf _ _ reducesTo_S32768x512_S32768_d1 (by decide) h_S_ j,
    val_main_cst_8_apply, Ideal.ofBits_def, ofBits_negInf]
  exact isReal_fold_max _ ⟨⟨0, by decide⟩, Finset.mem_univ _⟩ _ fun k _ => real_v47 x1 x2 h1 h2 _

/-- Joined once more with −∞ it is unchanged. -/
theorem real_v50 (x1 : (⟨S2097152, .f32⟩ : BufTy).Contents (Elt Ideal)) (x2 : (⟨S512x32, .f32⟩ : BufTy).Contents (Elt Ideal)) (h1 : Cert.Spec.AllReal x1) (h2 : Cert.Spec.AllReal x2) (j : S32768.Idx) :
    IsReal (val_main_v50 (F := Ideal) x1 x2 j) := by
  rw [val_main_v50_apply, val_main_v49_apply, val_main_cst_9_apply, Ideal.ofBits_def, ofBits_negInf,
    Ideal.maximumf_def, max_eq_right bot_le]
  exact real_v48 x1 x2 h1 h2 j

/-! ## The shift of every code vector -/

theorem Mrow_real (x1 : (⟨Cert.ReferenceIdeal.S2097152, .f32⟩ : BufTy).Contents (Elt Ideal)) (x2 : (⟨Cert.ReferenceIdeal.S512x32, .f32⟩ : BufTy).Contents (Elt Ideal))
    (h1 : Cert.Spec.AllReal x1) (h2 : Cert.Spec.AllReal x2) : ∀ n : Fin 65536, ∃ r : ℝ, Mrow x1 x2 n = (r : EReal) := by
  intro n
  unfold Mrow
  split
  · exact real_v19 x1 x2 h1 h2 _
  · exact real_v50 x1 x2 h1 h2 _

end Cert.RefValue

end
-- ==== Proof.Bridge.lean ====
/-
  The two spellings of the soft assignment agree on real data.

  Fix a code vector `v` (32 reals), a codebook `c` (512 × 32 reals) and a real shift `M`. Write
  `l k = Σ_e v e · (2 · c k e) − Σ_e (c k e)²` for the logits of the first spelling and
  `s k = −(|v|² − 2 · (v · c k) + |c k|²)` for the scores of the second. Since `Σ_e v e · (2 · c k e) = 2 · (v · c k)`,
  `s k − M = l k + (−|v|² − M)`, hence `exp (s k − M) = exp (l k) · α` with `α = exp (−|v|² − M) > 0` independent of `k`.
  With `E = Σ_k exp (l k) > 0` the second spelling is `Σ_k (exp (l k) · α) · (1 / (E · α)) · c k d`, and the common factor
  `α` cancels term by term, leaving `(Σ_k exp (l k) · c k d) · (1 / E)`, which is the first spelling.

  Over the extended reals every quantity above is the image of a real number, both divisors are nonzero reals, and
  division by a nonzero real is multiplication by its reciprocal; so the identity of real numbers is the identity asked.
-/
import proofs.«130315_g53111565582714_cont_9to1c4b_343_14_alg».proof.Proof.Spec
import Mathlib.Data.EReal.Basic
import Mathlib.Data.EReal.Operations
import Mathlib.Analysis.Complex.Exponential
import Mathlib.Algebra.BigOperators.Ring.Finset
import Mathlib.Algebra.Order.BigOperators.Group.Finset
import Mathlib.Tactic.FieldSimp
import Mathlib.Tactic.Ring

noncomputable section

namespace Cert.Spec

open Idealize.ShloMosaic

namespace Bridge

/-! ## The two literals -/

/-- The word `0x40000000` denotes the real number 2. -/
theorem two_eq : two = ((2 : ℝ) : EReal) := by
  simp [two, Ideal.ofBits, Ideal.ieee, -EReal.coe_mul]; norm_num

/-- The word `0x3F800000` denotes the real number 1. -/
theorem one_eq : one = ((1 : ℝ) : EReal) := by
  simp [one, Ideal.ofBits, Ideal.ieee, -EReal.coe_mul]; norm_num

/-! ## Finite sums of reals inside the extended reals -/

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The identity over the reals -/

/-- The logits of the first spelling, over the reals. -/
def logitReal {ι κ : Type*} [Fintype ι] (v : ι → ℝ) (c : κ → ι → ℝ) (k : κ) : ℝ :=
  (∑ e, v e * (2 * c k e)) + -(∑ e, c k e * c k e)

/-- The scores of the second spelling, over the reals. -/
def scoreReal {ι κ : Type*} [Fintype ι] (v : ι → ℝ) (c : κ → ι → ℝ) (k : κ) : ℝ :=
  -((∑ e, v e * v e) - 2 * (∑ e, v e * c k e) + ∑ e, c k e * c k e)

/-- A shifted score is a logit plus a term that does not depend on the codebook row. -/
theorem scoreReal_sub {ι κ : Type*} [Fintype ι] (v : ι → ℝ) (c : κ → ι → ℝ) (M : ℝ) (k : κ) :
    scoreReal v c k - M = logitReal v c k + (-(∑ e, v e * v e) - M) := by
  have h : (∑ e, v e * (2 * c k e)) = 2 * ∑ e, v e * c k e := by
    rw [Finset.mul_sum]; exact Finset.sum_congr rfl (fun e _ => by ring)
  unfold scoreReal logitReal; rw [h]; ring

/-- The sum of the exponentials of the logits is positive. -/
theorem sum_exp_pos {κ : Type*} [Fintype κ] [Nonempty κ] (l : κ → ℝ) : 0 < ∑ k, Real.exp (l k) :=
  Finset.sum_pos (fun k _ => Real.exp_pos (l k)) Finset.univ_nonempty

/-- The common positive factor cancels in the quotient: the two spellings agree over the reals. -/
theorem real_core {ι κ : Type*} [Fintype ι] [Fintype κ] [Nonempty κ] (v : ι → ℝ) (c : κ → ι → ℝ) (M : ℝ) (w : κ → ℝ) :
    (∑ k, Real.exp (logitReal v c k) * w k) * (1 * (1 / ∑ k, Real.exp (logitReal v c k) * 1))
      = ∑ k, Real.exp (scoreReal v c k - M) * (1 / ∑ k', Real.exp (scoreReal v c k' - M)) * w k := by
  have hE : 0 < ∑ k, Real.exp (logitReal v c k) := sum_exp_pos _
  have hα : 0 < Real.exp (-(∑ e, v e * v e) - M) := Real.exp_pos _
  have hs : ∀ k, Real.exp (scoreReal v c k - M) = Real.exp (logitReal v c k) * Real.exp (-(∑ e, v e * v e) - M) := by
    intro k; rw [scoreReal_sub, Real.exp_add]
  simp only [hs, mul_one, one_mul]
  rw [← Finset.sum_mul, Finset.sum_mul]
  refine Finset.sum_congr rfl (fun k _ => ?_)
  field_simp

/-! ## Both spellings as images of real numbers -/

theorem logitK_coe (v : Fin 32 → ℝ) (c : Fin 512 → Fin 32 → ℝ) (k : Fin 512) :
    logitK (fun e => (v e : EReal)) (fun k e => (c k e : EReal)) k = ((logitReal v c k : ℝ) : EReal) := by
  unfold logitK logitReal
  rw [two_eq]
  simp only [← EReal.coe_mul, ← coe_sum, ← EReal.coe_neg, ← EReal.coe_add]

theorem scoreR_coe (v : Fin 32 → ℝ) (c : Fin 512 → Fin 32 → ℝ) (k : Fin 512) :
    scoreR (fun e => (v e : EReal)) (fun k e => (c k e : EReal)) k = ((scoreReal v c k : ℝ) : EReal) := by
  unfold scoreR scoreReal
  rw [two_eq]
  simp only [← EReal.coe_mul, ← coe_sum, ← EReal.coe_neg, ← EReal.coe_add, ← EReal.coe_sub]

/-- The first spelling on real data is the image of a real number. -/
theorem qK_coe (v : Fin 32 → ℝ) (c : Fin 512 → Fin 32 → ℝ) (d : Fin 32) :
    qK (fun e => (v e : EReal)) (fun k e => (c k e : EReal)) d
      = (((∑ k, Real.exp (logitReal v c k) * c k d) * (1 * (1 / ∑ k, Real.exp (logitReal v c k) * 1)) : ℝ) : EReal) := by
  have hE : (∑ k : Fin 512, Real.exp (logitReal v c k) * 1) ≠ 0 := by
    simp only [mul_one]; exact (sum_exp_pos _).ne'
  unfold qK
  simp only [logitK_coe, Ideal.exp_coe, one_eq, ← EReal.coe_mul, ← coe_sum]
  rw [Ideal.div_coe hE]
  simp only [← EReal.coe_mul]

/-- The second spelling on real data, at a real shift, is the image of a real number. -/
theorem qR_coe (M : ℝ) (v : Fin 32 → ℝ) (c : Fin 512 → Fin 32 → ℝ) (d : Fin 32) :
    qR (M : EReal) (fun e => (v e : EReal)) (fun k e => (c k e : EReal)) d
      = ((∑ k, Real.exp (scoreReal v c k - M) * (1 / ∑ k', Real.exp (scoreReal v c k' - M)) * c k d : ℝ) : EReal) := by
  have hE : (∑ k' : Fin 512, Real.exp (scoreReal v c k' - M)) ≠ 0 := (sum_exp_pos _).ne'
  unfold qR
  simp only [scoreR_coe, ← EReal.coe_sub, Ideal.exp_coe, ← coe_sum]
  simp only [Ideal.div_coe hE, ← EReal.coe_mul, ← coe_sum]

/-- The two spellings agree on a real code vector, a real codebook and a real shift. -/
theorem qK_eq_qR (M : ℝ) (v : Fin 32 → ℝ) (c : Fin 512 → Fin 32 → ℝ) (d : Fin 32) :
    qK (fun e => (v e : EReal)) (fun k e => (c k e : EReal)) d
      = qR (M : EReal) (fun e => (v e : EReal)) (fun k e => (c k e : EReal)) d := by
  rw [qK_coe, qR_coe, real_core v c M (fun k => c k d)]

end Bridge

open Bridge

/-! ## The weight matrices and the outputs -/

theorem WK_eq_WR (Mf : Fin 65536 → EReal) (hM : ∀ n, ∃ r : ℝ, Mf n = (r : EReal))
    (p : Fin 2097152 → EReal) (hp : ∀ n, ∃ r : ℝ, p n = (r : EReal))
    (cb : Fin 512 → Fin 32 → EReal) (hcb : ∀ k e, ∃ r : ℝ, cb k e = (r : EReal)) :
    WK p cb = WR Mf p cb := by
  choose Mr hMr using hM
  choose pr hpr using hp
  choose cr hcr using hcb
  obtain rfl : cb = fun k e => (cr k e : EReal) := funext fun k => funext fun e => hcr k e
  obtain rfl : p = fun n => (pr n : EReal) := funext hpr
  funext r col
  unfold WK WR
  rw [hMr]
  exact qK_eq_qR (Mr (codeOf r col)) (fun e => pr ⟨32 * (codeOf r col).val + e.val, by
    have := (codeOf r col).isLt; have := e.isLt; omega⟩) cr (coordOf col)

theorem outK_eq_outR (Mf : Fin 65536 → EReal) (hM : ∀ n, ∃ r : ℝ, Mf n = (r : EReal))
    (a0 : S2048x1024.Idx → EReal) (a1 : S2097152.Idx → EReal) (a2 : S512x32.Idx → EReal)
    (h1 : AllReal a1) (h2 : AllReal a2) : outK a0 a1 a2 = outR Mf a0 a1 a2 := by
  unfold outK outR
  rw [WK_eq_WR Mf hM (pOf a1) (fun n => h1 _) (cbOf a2) (fun k e => h2 _)]

end Cert.Spec

end
-- ==== Proof.Finite.lean ====
/-
  Finiteness of the inputs, read back from the precondition.

  The precondition states, for each of the three argument arrays, that |x| < +∞ at every entry, the entrywise
  comparisons folded by "and" over the whole array and the three results and-ed. Over the extended reals
  |x| is max x (−x), so |x| < ⊤ says x ≠ ⊤ and x ≠ ⊥: such an x is a real number. Hence every entry of every
  argument array is real.
-/
import proofs.«130315_g53111565582714_cont_9to1c4b_343_14_alg».proof.Pre_finite_inputs
import proofs.«130315_g53111565582714_cont_9to1c4b_343_14_alg».proof.Proof.Gen.Pre_finite_inputs
import proofs.«130315_g53111565582714_cont_9to1c4b_343_14_alg».proof.Proof.Spec
import Idealize.ShloMosaic.PureOps.Ideal
import Idealize.ShloMosaic.Lib.ReduceAll
import Idealize.ShloMosaic.Lib.ValueIdx
import Mathlib.Data.EReal.Basic

noncomputable section

namespace Cert.Finite

open Idealize.ShloMosaic

/-- The f32 word of +∞ is the top of the extended reals. -/
theorem ofBits_inf : Ideal.ofBits .f32 0x7F800000#32 = (⊤ : EReal) := by
  simp [Ideal.ofBits, Ideal.ieee]

/-- An extended real whose absolute value max x (−x) compares below +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_inf] at h
  unfold Ideal.cmp at h
  have hlt : max x (-x) < ⊤ := by
    by_contra hn
    simp [hn] at h
  rw [max_lt_iff] at hlt
  have h1 : x ≠ ⊤ := ne_of_lt hlt.1
  have h2 : x ≠ ⊥ := by
    intro hh
    rw [hh] at hlt
    simp at hlt
  exact ⟨x.toReal, (EReal.coe_toReal h1 h2).symm⟩

/-- The shape with no axes has one index. -/
instance : Subsingleton Cert.Pre_finite_inputs.S_.Idx := ⟨fun a b => funext fun d => d.elim0⟩

theorem allReal_of_pre (a0 : FVec Ideal Cert.Pre_finite_inputs.S2048x1024 .f32)
    (a1 : FVec Ideal Cert.Pre_finite_inputs.S2097152 .f32) (a2 : FVec Ideal Cert.Pre_finite_inputs.S512x32 .f32)
    (h : Cert.Pre_finite_inputs.fn (F := Ideal) a0 a1 a2 = (fun _ => 1#1)) :
    Cert.Spec.AllReal a0 ∧ Cert.Spec.AllReal a1 ∧ Cert.Spec.AllReal a2 := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt_inf _ (Host.reduce_andi_all _ _ _ _ _ h0' i)
  · exact real_of_abs_lt_inf _ (Host.reduce_andi_all _ _ _ _ _ h1 i)
  · exact real_of_abs_lt_inf _ (Host.reduce_andi_all _ _ _ _ _ h2 i)

end Cert.Finite

end
-- ==== Proof.lean ====
/-
  The certificate's claims assembled.

  The kernel quantizes a flat parameter vector softly against a codebook into the two weight matrices of a two-layer
  perceptron and applies the perceptron; the reference does the same with a softmax shifted by its maximum and with
  the squared norm of each code vector kept. Over the extended reals, on finite inputs, the two agree
  (`Cert.Spec.outK_eq_outR`): the shift and the squared norm are a common positive factor of numerator and denominator.

  * The three frames: each program runs to the end without a fault and leaves its arguments as launched — the kernel's
    programs as three chained segments (host prologue, quantizer region, perceptron region), the reference as a list of
    host operations.
  * `preserves`: the idealization rewrote no operation.
  * `algebraic`: the kernel's result array is `Cert.Spec.outK` of the arguments, the reference's is `Cert.Spec.outR`
    of them at the shifts the reference computes, which are real on finite inputs.
-/
import proofs.«130315_g53111565582714_cont_9to1c4b_343_14_alg».proof.Defs
import proofs.«130315_g53111565582714_cont_9to1c4b_343_14_alg».proof.Proof.Gen.Kernel
import proofs.«130315_g53111565582714_cont_9to1c4b_343_14_alg».proof.Proof.Gen.KernelIdeal
import proofs.«130315_g53111565582714_cont_9to1c4b_343_14_alg».proof.Proof.Gen.ReferenceIdeal
import proofs.«130315_g53111565582714_cont_9to1c4b_343_14_alg».proof.Proof.Gen.ReferenceIdeal.Run
import proofs.«130315_g53111565582714_cont_9to1c4b_343_14_alg».proof.Proof.Gen.ReferenceIdeal.Read
import proofs.«130315_g53111565582714_cont_9to1c4b_343_14_alg».proof.Proof.Gen.Pre_finite_inputs
import proofs.«130315_g53111565582714_cont_9to1c4b_343_14_alg».proof.Proof.KB.Main
import proofs.«130315_g53111565582714_cont_9to1c4b_343_14_alg».proof.Proof.KI.Value
import proofs.«130315_g53111565582714_cont_9to1c4b_343_14_alg».proof.Proof.RefValue
import proofs.«130315_g53111565582714_cont_9to1c4b_343_14_alg».proof.Proof.RefMax
import proofs.«130315_g53111565582714_cont_9to1c4b_343_14_alg».proof.Proof.Bridge
import proofs.«130315_g53111565582714_cont_9to1c4b_343_14_alg».proof.Proof.Finite
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end with the result array at `Cert.Spec.outK` of the (agreeing, finite) arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Spec.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c => ⟨(h c).1.trans (Cert.KernelIdeal.Hand.out_eq m c), (h c).2⟩)
      (Cert.KernelIdeal.Hand.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨_, h1, h2⟩ := Cert.Finite.allReal_of_pre _ _ _ (hpre c)
    rw [Cert.ReferenceIdeal.Read.val_main_v64_eq, Cert.RefValue.ref_eq, (hagree c).1, (hagree c).2.1, (hagree c).2.2]
    exact (Cert.Spec.outK_eq_outR _ (Cert.RefValue.Mrow_real _ _ h1 h2) _ _ _ h1 h2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
